-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S512x100000 : Shape := ⟨2, ![512, 100000]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x100000 : S_.BroadcastsInDim S512x100000 (![] : Fin 0 → Fin S512x100000.rank)
  reducesTo_S512x100000_S_d0_1 : S512x100000.ReducesTo [0, 1] S_

variable [Facts]

def fn {F : FTy → Type} [FloatOps F] (main_arg0 : FVec F S512x512 .f32) (main_arg1 : IVec S512 32) (main_arg2 : FVec F S512x100000 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x100000 .f32 := Host.absf main_arg2
  let main_cst_0 : FVec F S_ .f32 := constant S_ .f32 0x7F800000#32
  let main_v5 : FVec F S512x100000 .f32 := broadcastInDim S512x100000 ![] bcast_S_S512x100000 main_cst_0
  let main_v6 : IVec S512x100000 1 := cmpf .olt main_v4 main_v5
  let main_c_1 : IVec S_ 1 := constantI S_ 1 1#1
  let main_v7 : IVec S_ 1 := (fun x v => Host.reduce IntOp.andi x v reducesTo_S512x100000_S_d0_1 h_S_) main_v6 main_c_1
  let main_v8 : IVec S_ 1 := andi main_v3 main_v7
  main_v8
-- ==== Kernel.lean ====
abbrev S512x512 : Shape := ⟨2, ![512, 512]⟩
abbrev S512 : Shape := ⟨1, ![512]⟩
abbrev S512x100000 : Shape := ⟨2, ![512, 100000]⟩
abbrev S512x1 : Shape := ⟨2, ![512, 1]⟩
abbrev S512x1024 : Shape := ⟨2, ![512, 1024]⟩
abbrev S1024 : Shape := ⟨1, ![1024]⟩
abbrev S1x1024 : Shape := ⟨2, ![1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x100000, .f32⟩
  | .hbm, ⟨3, _⟩ => ⟨S512x512, .f32⟩
  | .hbm, ⟨4, _⟩ => ⟨S512x1, .i32⟩
  | .hbm, ⟨5, _⟩ => ⟨S512x100000, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x1024, .f32⟩
  | .local _ .vmem, ⟨4, _⟩ => ⟨S512x1024, .f32⟩
  | .local _ .vmem, ⟨5, _⟩ => ⟨S512x1, .i32⟩
  | .local _ .vmem, ⟨6, _⟩ => ⟨S512x1024, .f32⟩
  | .local _ .vmem, ⟨7, _⟩ => ⟨S512x1024, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem3_0 : DmaSem sig := 6
abbrev cc1_sem3_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  inb_S512x1024_S512x1024_0_0 : ∀ a, (![0, 0] : Fin 2 → Nat) a + S512x1024.size a ≤ S512x1024.size a
  h_S512x1024 : 0 < S512x1024.numel
  reduces_S512x1024_S1024 : S512x1024.Reduces [0] S1024
  shapeCasts_S1024_S1x1024 : S1024.ShapeCasts S1x1024
  broadcasts_S1x1024_S512x1024 : S1x1024.Broadcasts S512x1024
  shapeCasts_S512x512_S512x512 : S512x512.ShapeCasts S512x512
  bitsLt_bf16_f32 : FTy.bits .bf16 < FTy.bits .f32
  iota_S512x1024_d1_w32 : S512x1024.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .f32 = 32 ∨ (Rect.block (s := S512x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S512x1024.size a < S512x100000.size a
  hwx1_1 : ∀ i : grid1.Coords, EltTy.bits .f32 = 32 ∨ (Rect.unit (s := S512x100000) (fun a => cc1_transform_1 i a * S512x1024.size a) (fun a => (Pipeline.Clip.of (cc1_transform_1 i a) (S512x1024.size a) (S512x100000.size a)).extent (S512x1024.size a)) fun a => Pipeline.Clip.inb (Pipeline.Clip.ok_of (hstart1_1 i a))).WholeWords (EltTy.packing .f32)
  hwxs1_1 : ∀ i : grid1.Coords, EltTy.bits .f32 = 32 ∨ (Rect.unit (s := S512x1024) (fun _ => 0) (fun a => (Pipeline.Clip.of (cc1_transform_1 i a) (S512x1024.size a) (S512x100000.size a)).extent (S512x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .i32 = 32 ∨ (Rect.block (s := S512x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S512x1024.size a < S512x100000.size a
  hwx1_3 : ∀ i : grid1.Coords, EltTy.bits .f32 = 32 ∨ (Rect.unit (s := S512x100000) (fun a => cc1_transform_3 i a * S512x1024.size a) (fun a => (Pipeline.Clip.of (cc1_transform_3 i a) (S512x1024.size a) (S512x100000.size a)).extent (S512x1024.size a)) fun a => Pipeline.Clip.inb (Pipeline.Clip.ok_of (hstart1_3 i a))).WholeWords (EltTy.packing .f32)
  hwxs1_3 : ∀ i : grid1.Coords, EltTy.bits .f32 = 32 ∨ (Rect.unit (s := S512x1024) (fun _ => 0) (fun a => (Pipeline.Clip.of (cc1_transform_3 i a) (S512x1024.size a) (S512x100000.size a)).extent (S512x1024.size a)) fun a => (Nat.zero_add _).trans_le (Pipeline.Clip.extent_le (Pipeline.Clip.ok_of (hstart1_3 i a)))).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg2) S512x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v1) S512x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_v2) S512x1024.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x512 : Shape := ⟨2, ![512, 512]⟩
abbrev S512 : Shape := ⟨1, ![512]⟩
abbrev S512x100000 : Shape := ⟨2, ![512, 100000]⟩
abbrev S_ : Shape := ⟨0, ![]⟩
abbrev S512x1 : Shape := ⟨2, ![512, 1]⟩
abbrev S100000 : Shape := ⟨1, ![100000]⟩
abbrev S1x100000 : Shape := ⟨2, ![1, 100000]⟩

abbrev nBuf : Space → Nat
  | .hbm => 72
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x100000, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S512x100000, .f32⟩
  | .hbm, ⟨14, _⟩ => ⟨S_, .f32⟩
  | .hbm, ⟨15, _⟩ => ⟨S100000, .f32⟩
  | .hbm, ⟨16, _⟩ => ⟨S1x100000, .f32⟩
  | .hbm, ⟨17, _⟩ => ⟨S_, .f32⟩
  | .hbm, ⟨18, _⟩ => ⟨S1x100000, .f32⟩
  | .hbm, ⟨19, _⟩ => ⟨S1x100000, .f32⟩
  | .hbm, ⟨20, _⟩ => ⟨S1x100000, .f32⟩
  | .hbm, ⟨21, _⟩ => ⟨S512x100000, .f32⟩
  | .hbm, ⟨22, _⟩ => ⟨S512x100000, .f32⟩
  | .hbm, ⟨23, _⟩ => ⟨S512x100000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S512x100000, .f32⟩
  | .hbm, ⟨28, _⟩ => ⟨S512x100000, .f32⟩
  | .hbm, ⟨29, _⟩ => ⟨S_, .f32⟩
  | .hbm, ⟨30, _⟩ => ⟨S512x100000, .f32⟩
  | .hbm, ⟨31, _⟩ => ⟨S512x100000, .f32⟩
  | .hbm, ⟨32, _⟩ => ⟨S512x100000, .f32⟩
  | .hbm, ⟨33, _⟩ => ⟨S_, .f32⟩
  | .hbm, ⟨34, _⟩ => ⟨S512x100000, .f32⟩
  | .hbm, ⟨35, _⟩ => ⟨S512x100000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S512x100000, .f32⟩
  | .hbm, ⟨40, _⟩ => ⟨S512x100000, .f32⟩
  | .hbm, ⟨41, _⟩ => ⟨S_, .f32⟩
  | .hbm, ⟨42, _⟩ => ⟨S512x100000, .f32⟩
  | .hbm, ⟨43, _⟩ => ⟨S512x100000, .f32⟩
  | .hbm, ⟨44, _⟩ => ⟨S512x100000, .f32⟩
  | .hbm, ⟨45, _⟩ => ⟨S_, .f32⟩
  | .hbm, ⟨46, _⟩ => ⟨S512x100000, .f32⟩
  | .hbm, ⟨47, _⟩ => ⟨S512x100000, .f32⟩
  | .hbm, ⟨48, _⟩ => ⟨S_, .f32⟩
  | .hbm, ⟨49, _⟩ => ⟨S512x100000, .f32⟩
  | .hbm, ⟨50, _⟩ => ⟨S512x100000, .f32⟩
  | .hbm, ⟨51, _⟩ => ⟨S512x100000, .f32⟩
  | .hbm, ⟨52, _⟩ => ⟨S_, .f32⟩
  | .hbm, ⟨53, _⟩ => ⟨S512x100000, .f32⟩
  | .hbm, ⟨54, _⟩ => ⟨S512x100000, .i1⟩
  | .hbm, ⟨55, _⟩ => ⟨S_, .f32⟩
  | .hbm, ⟨56, _⟩ => ⟨S512x100000, .f32⟩
  | .hbm, ⟨57, _⟩ => ⟨S512x100000, .f32⟩
  | .hbm, ⟨58, _⟩ => ⟨S512x100000, .f32⟩
  | .hbm, ⟨59, _⟩ => ⟨S512x1, .i32⟩
  | .hbm, ⟨60, _⟩ => ⟨S1x100000, .i32⟩
  | .hbm, ⟨61, _⟩ => ⟨S512x100000, .i32⟩
  | .hbm, ⟨62, _⟩ => ⟨S512x100000, .i32⟩
  | .hbm, ⟨63, _⟩ => ⟨S512x100000, .i1⟩
  | .hbm, ⟨64, _⟩ => ⟨S512x100000, .f32⟩
  | .hbm, ⟨65, _⟩ => ⟨S_, .f32⟩
  | .hbm, ⟨66, _⟩ => ⟨S512x100000, .f32⟩
  | .hbm, ⟨67, _⟩ => ⟨S512x100000, .i1⟩
  | .hbm, ⟨68, _⟩ => ⟨S512x100000, .f32⟩
  | .hbm, ⟨69, _⟩ => ⟨S_, .f32⟩
  | .hbm, ⟨70, _⟩ => ⟨S512x100000, .f32⟩
  | .hbm, ⟨71, _⟩ => ⟨S512x100000, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v21 : Ref sig .tc := ⟨.hbm, 43, rfl⟩
abbrev main_v22 : Ref sig .tc := ⟨.hbm, 44, rfl⟩
abbrev main_cst_8 : Ref sig .tc := ⟨.hbm, 45, rfl⟩
abbrev main_v23 : Ref sig .tc := ⟨.hbm, 46, rfl⟩
abbrev main_v24 : Ref sig .tc := ⟨.hbm, 47, rfl⟩
abbrev main_cst_9 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_10 : Ref sig .tc := ⟨.hbm, 52, rfl⟩
abbrev main_v28 : Ref sig .tc := ⟨.hbm, 53, rfl⟩
abbrev main_v29 : Ref sig .tc := ⟨.hbm, 54, rfl⟩
abbrev main_cst_11 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v33 : Ref sig .tc := ⟨.hbm, 64, rfl⟩
abbrev main_cst_12 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_13 : Ref sig .tc := ⟨.hbm, 69, rfl⟩
abbrev main_v37 : Ref sig .tc := ⟨.hbm, 70, rfl⟩
abbrev main_v38 : Ref sig .tc := ⟨.hbm, 71, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S512x100000_S100000_d0 : S512x100000.ReducesTo [0] S100000
  bcast_S100000_S1x100000_1 : S100000.BroadcastsInDim S1x100000 (![1] : Fin 1 → Fin S1x100000.rank)
  bcast_S_S1x100000 : S_.BroadcastsInDim S1x100000 (![] : Fin 0 → Fin S1x100000.rank)
  bcast_S1x100000_S512x100000_0_1 : S1x100000.BroadcastsInDim S512x100000 (![0, 1] : Fin 2 → Fin S512x100000.rank)
  bcast_S_S512x100000 : S_.BroadcastsInDim S512x100000 (![] : Fin 0 → Fin S512x100000.rank)
  bcast_S512x1_S512x100000_0_1 : S512x1.BroadcastsInDim S512x100000 (![0, 1] : Fin 2 → Fin S512x100000.rank)
  dot_S512x512_S512x100000_S512x100000_1_0_0_1_n_n_wf : DotDims.WF S512x512 S512x100000 S512x100000 [1] [0] [0] [1] [] []

variable [Facts₀]

def dot_S512x512_S512x100000_S512x100000_1_0_0_1_n_n : DotDims S512x512 S512x100000 S512x100000 where
  lhsContracting := [1]
  rhsContracting := [0]
  lhsNonContracting := [0]
  rhsNonContracting := [1]
  lhsBatch := []
  rhsBatch := []
  wf := dot_S512x512_S512x100000_S512x100000_1_0_0_1_n_n_wf

class Facts : Prop extends Facts₀ where

variable [Facts]
-- ==== Proof.BBody.lean ====
import proofs.«178207_j6897717477494_1_alg».proof.Proof.Gen.Kernel.Launch
import proofs.«178207_j6897717477494_1_alg».proof.Proof.Gen.Kernel.Skeleton
import proofs.«178207_j6897717477494_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The two kernel bodies as triples over their staging buffers

Region 0's body reads its input buffer whole and stores the row-normalised block; region 1's body reads the normalised
embeddings, one column tile of the weights and the labels, and stores the scaled margin logits of that tile. -/

/-- Reading back, through any view, one unmasked store made through the whole-shape rectangle at zero offsets gives
    the stored payload, whatever the contents were before: the rectangle holds every index. -/
private theorem read_store_unit_zero {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through that rectangle reads what the view reads. -/
private theorem load_unit_zero {Val : EltTy → Type} {sg : RefSig} {κ : Kind} {sp : Space}
    {S : Shape} {e : EltTy} (v : View sg κ sp S e) (f : v.ty.Contents Val) {off : Fin S.rank → Nat}
    (h : off = fun _ => 0) (inb : ∀ a, off a + S.size a ≤ S.size a) :
    v.readAt Val (Rect.unit off S.size inb).toLoadRect f = v.read Val f := by
  rw [View.readAt_eq_ld, View.ld_unit_zero h]

/-- The two zero offsets of a rank-two access are the constant zero function. -/
private theorem zeros2 : (![0, 0] : Fin 2 → Nat) = fun _ => 0 := funext fun a => by fin_cases a <;> rfl

/-- What region 1's body stores, as one function of the three input buffers' contents and the grid point. -/
def pay1 (i : grid1.Coords) (x0 : Vec F S512x512 .f32) (x1 : Vec F S512x1024 .f32) (x2 : Vec F S512x1 .i32) : Vec F S512x1024 .f32 :=
  k1_pay1 (k1_pay2 x1 x0) (k1_pay3 x1 x0) (k1_pay4 i) x2

/-- Region 0's body: the input buffer at `x0`, the output buffer at anything; it ends with the input as it was and
    the output holding `k0_pay1 x0`. -/
theorem sound_kernel0 (c : Dev nD) (E : Set ℕ) (i : grid0.Coords)
    (arg1 : Memref sig .tc .vmem S512x512 .f32) (harg1 : arg1.IsWhole) (arg2 : Memref sig .tc .vmem S512x512 .f32) (harg2 : arg2.IsWhole)
    (x0 : Vec F S512x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__norm_embeds_kernel i arg1 harg1 arg2 harg2) K := by
  simp only [cc0__norm_embeds_kernel_eq_skeleton]; unfold cc0__norm_embeds_kernel_skel
  unfold owns
  iintro ⟨⟨%f0, %hf0, H0⟩, ⟨%d1, %f1, -, H1⟩, Hk⟩
  subst hf0
  -- the two loads and the store run on the owned elements; the input's raw contents are untouched
  sl_exec
  sl_step
  iapply Hk
  isplitl [H0]
  · iexists f0; isplitr; · ipureintro; rfl
    iexact H0
  iexists _; isplitr
  swap; · iexact H1
  ipureintro
  -- the output reads the payload (one store over the whole buffer), and the payload's argument, loaded through the
  -- whole buffer, is what the input reads
  rw [read_store_unit_zero _ _ zeros2, load_unit_zero _ _ zeros2]

/-- Region 1's body: the three input buffers at `x0`, `x1`, `x2`, the output buffer at anything; it ends with the
    inputs as they were and the output holding `pay1 i x0 x1 x2`. -/
theorem sound_kernel1 (c : Dev nD) (E : Set ℕ) (i : grid1.Coords)
    (arg1 : Memref sig .tc .vmem S512x512 .f32) (harg1 : arg1.IsWhole) (arg2 : Memref sig .tc .vmem S512x1024 .f32) (harg2 : arg2.IsWhole)
    (arg3 : Memref sig .tc .vmem S512x1 .i32) (harg3 : arg3.IsWhole) (arg4 : Memref sig .tc .vmem S512x1024 .f32) (harg4 : arg4.IsWhole)
    (x0 : Vec F S512x512 .f32) (x1 : Vec F S512x1024 .f32) (x2 : Vec F S512x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (pay1 i x0 x1 x2)) -∗ K ⟨⟩))
      ⊢ wp frame (wpE (defs₀ (F := F)) Variants.none c none) E (cc1__margin_kernel i arg1 harg1 arg2 harg2 arg3 harg3 arg4 harg4) K := by
  simp only [cc1__margin_kernel_eq_skeleton, k1_part1_eq_skeleton]; unfold cc1__margin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  -- the first part's two loads, the labels' load, the dead load of the output and the store run on the owned
  -- elements; the three inputs' raw contents are untouched
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the first part's results are its payloads of the two loaded values; the output reads the stored payload (one
  -- store over the whole buffer), and each loaded value, read through its whole buffer, is what that input reads
  sl_unfold_run_names
  rw [read_store_unit_zero _ _ zeros2]
  simp only [load_unit_zero (S := S512x512) _ _ zeros2, load_unit_zero (S := S512x1024) _ _ zeros2,
    load_unit_zero (S := S512x1) _ _ zeros2]
  rfl

end Cert.Kernel.Hand

end
-- ==== Proof.BDat.lean ====
import proofs.«178207_j6897717477494_1_alg».proof.Proof.BBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The proof data of the two pipelines, at the contents `V` the region is entered from

Region 0 has one grid point and whole blocks. Region 1 walks 98 column tiles of width 1024 over 100000 columns: the
weights' window and the result's window overhang the arrays at the last tile (672 columns inside), so both are loose:
of their staging buffers only the columns inside the array are stated. The result's contents after the body are a
parameter `a3`: named where the arithmetic allows it, forgotten where it does not. -/

variable (V : (c : Dev nD) → (b : Ref sig .tc) → Buf (Elt F) ((c : Thread nD τ).loc b))

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block at point `t` of region 1 (for a cut window: its part inside the array). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weights' tile at point `t` filled out past the array's end with `d`. -/
def wtile (c : Dev nD) (t : Fin cfg1.N) (d : S512x1024.Idx → Elt F .f32) : S512x1024.Idx → Elt F .f32 :=
  win1_1.fill (grid1.coords t) d (iblk1 V c 1 t)

/-- The filler the proof data uses past the array's end: the zero word. -/
abbrev zfill : S512x1024.Idx → Elt F .f32 := fun _ => Scalar.ofBits .f32 0#32

/-- Region 0's proof data: the input's buffer keeps its block, the output's holds the normalised block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

/-- Region 1's proof data: each input's buffer keeps its block (the weights' filled out with zeros), the result's
    holds `a3 t`. -/
def dat1 (a3 : Fin cfg1.N → S512x1024.Idx → Elt F .f32) (c : Dev nD) : Dat τ (Elt F) Unit ℕ (UR sig nD τ) ℕ cfg1 c where
  A w := V c (Pipeline.arrRef spec1 w)
  after w t := match w with
    | ⟨0, _⟩ => iblk1 V c 0 t
    | ⟨1, _⟩ => wtile V c t zfill
    | ⟨2, _⟩ => iblk1 V c 2 t
    | ⟨3, _⟩ => a3 t
  Φ _ := Pipeline.ΦA spec1 c
  q _ := fullShare
  owed _ := 0

/-- The mask that forgets region 1's result window. -/
abbrev fgt3 : Fin cfg1.W → Bool := fun | ⟨0, _⟩ => false | ⟨1, _⟩ => false | ⟨2, _⟩ => false | ⟨3, _⟩ => true | ⟨_ + 4, h⟩ => absurd h (Nat.not_lt.2 (Nat.le_add_left _ _))

/-! ## Region 0: one point, whole blocks -/

/-- The arrays of region 0's proof data are the contents the region is entered from. -/
theorem A_eq0 (c : Dev nD) (w : Fin cfg0.W) : (dat0 V c).A w = V c (Pipeline.arrRef spec0 w) := by
  dsimp only [dat0]

/-- What region 0's body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]

/-- The input's window is fetched at the one point and is not cut: its buffer holds the block. -/
theorem before0_0 (c : Dev nD) (t : Fin cfg0.N) (d) : (dat0 V c).before 0 t d = iblk0 V c 0 t := by
  unfold Dat.before
  rw [if_pos (fetch0_0 t)]
  unfold Dat.fetched Dat.blockOf iblk0
  rw [A_eq0]
  rfl

/-- Region 0's body obligation. -/
theorem body_obligation0 (c : Dev nD) : BodyObligation (dat0 (F := F) V c) (defs₀ (F := F)) Variants.none () Set.univ := fun t => by
  rw [bigSep_W0, bigSep_W0]
  simp only [before0_0]
  rw [show (dat0 V c).Φ t.succ = (dat0 V c).Φ t.castSucc from rfl,
    show (dat0 V c).owesAt () t.succ = (dat0 V c).owesAt () t.castSucc from rfl,
    after0_0, after0_1]
  show _ ⊢ wp frame _ _ (bodyAt0 t) _
  unfold bodyAt0
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-! ## Region 1: 98 column tiles, the weights' and the result's windows cut at the last -/

section Region1
variable (a3 : Fin cfg1.N → S512x1024.Idx → Elt F .f32)

/-- The arrays of region 1's proof data are the contents the region is entered from. -/
theorem A_eq1 (c : Dev nD) (w : Fin cfg1.W) : (dat1 V a3 c).A w = V c (Pipeline.arrRef spec1 w) := by
  dsimp only [dat1]

/-- What region 1's body leaves, window by window. -/
theorem after1_0 (c : Dev nD) (t : Fin cfg1.N) : (dat1 V a3 c).after 0 t = iblk1 V c 0 t := by dsimp only [dat1]
theorem after1_1 (c : Dev nD) (t : Fin cfg1.N) : (dat1 V a3 c).after 1 t = wtile V c t zfill := by dsimp only [dat1]
theorem after1_2 (c : Dev nD) (t : Fin cfg1.N) : (dat1 V a3 c).after 2 t = iblk1 V c 2 t := by dsimp only [dat1]
theorem after1_3 (c : Dev nD) (t : Fin cfg1.N) : (dat1 V a3 c).after 3 t = a3 t := by dsimp only [dat1]

/-- The block the proof data reads for window `w` at point `t` is `iblk1`'s. -/
theorem blockOf1 (c : Dev nD) (w : Fin cfg1.W) (t : Fin cfg1.N) : (dat1 V a3 c).blockOf w t = iblk1 V c w t := by
  unfold Dat.blockOf iblk1
  rw [A_eq1]

/-- The normalised embeddings' window is whole and its block index never moves: fetched at the first point, left in
    place by the body, its buffer holds the block at every point. -/
theorem before1_0 (c : Dev nD) (t : Fin cfg1.N) (d) : (dat1 V a3 c).before 0 t d = iblk1 V c 0 t := by
  have hkeep : ∀ s, (cfg1.win 0).cut (cfg1.grid.coords s) ((dat1 V a3 c).after 0 s) = (dat1 V a3 c).blockOf 0 s := fun s => by
    rw [after1_0, blockOf1]
  rw [(dat1 V a3 c).before_in_eq_fetched 0 rfl (fun _ => rfl) (fun _ _ _ => rfl) hkeep t d]
  unfold Dat.fetched
  rw [blockOf1]
  rfl

/-- The labels' window likewise. -/
theorem before1_2 (c : Dev nD) (t : Fin cfg1.N) (d) : (dat1 V a3 c).before 2 t d = iblk1 V c 2 t := by
  have hkeep : ∀ s, (cfg1.win 2).cut (cfg1.grid.coords s) ((dat1 V a3 c).after 2 s) = (dat1 V a3 c).blockOf 2 s := fun s => by
    rw [after1_2, blockOf1]
  rw [(dat1 V a3 c).before_in_eq_fetched 2 rfl (fun _ => rfl) (fun _ _ _ => rfl) hkeep t d]
  unfold Dat.fetched
  rw [blockOf1]
  rfl

/-- The weights' window is fetched at every point: its buffer holds the tile on the columns inside the array and what
    it held before, `d`, past the array's end. -/
theorem before1_1 (c : Dev nD) (t : Fin cfg1.N) (d) : (dat1 V a3 c).before 1 t d = wtile V c t d := by
  unfold Dat.before
  rw [if_pos (fetch1_1 t)]
  unfold Dat.fetched wtile
  rw [blockOf1]

/-- On the columns inside the array the tile filled out with zeros is the tile itself: putting those columns back over
    any `d` gives the tile filled out with `d`. -/
theorem wtile_refill (c : Dev nD) (t : Fin cfg1.N) (d : S512x1024.Idx → Elt F .f32) :
    (win1 1).fill (grid1.coords t) d ((win1 1).cut (grid1.coords t) (wtile V c t zfill)) = wtile V c t d := by
  rw [show (win1 1).cut (grid1.coords t) (wtile V c t zfill) = iblk1 V c 1 t from Window.cut_fill _ _ _ _]
  rfl

end Region1

/-- Region 1's body obligation with the result window forgotten: whatever `a3` is. -/
theorem body_obligation1_forget (a3 : Fin cfg1.N → S512x1024.Idx → Elt F .f32) (c : Dev nD) :
    BodyObligationLoose (dat1 (F := F) V a3 c) (defs₀ (F := F)) Variants.none () Set.univ fgt3 := fun t => by
  rw [bigSep_W1, bigSep_W1]
  simp only [before1_0, before1_1, before1_2]
  rw [show (dat1 V a3 c).Φ t.succ = (dat1 V a3 c).Φ t.castSucc from rfl,
    show (dat1 V a3 c).owesAt () t.succ = (dat1 V a3 c).owesAt () t.castSucc from rfl,
    after1_0, after1_1, after1_2]
  -- the weights' post asks for the tile filled out with anything
  simp only [wtile_refill V c t]
  show _ ⊢ wp frame _ _ (bodyAt1 t) _
  unfold bodyAt1
  iintro ⟨HΦ, Ho, ⟨%d0, H0⟩, ⟨%d1, H1⟩, ⟨%d2, H2⟩, ⟨%X, H3⟩⟩
  iapply (sound_kernel1 c Set.univ (grid1.coords t) _ _ _ _ _ _ _ _ (iblk1 V c 0 t) (wtile V c t d1) (iblk1 V c 2 t) _)
  isplitl [H0]; · iexact H0
  isplitl [H1]; · iexact H1
  isplitl [H2]; · iexact H2
  isplitl [H3]; · iexists X; iexact H3
  iintro ⟨H0, H1, H2, H3⟩
  isplitl [HΦ]; · iexact HΦ
  isplitl [Ho]; · iexact Ho
  isplitl [H0]; · iexact H0
  isplitl [H1]; · iexists d1; iexact H1
  isplitl [H2]; · iexact H2
  iexists _; iexact H3

/-- Region 1's body obligation with the result window named, when on the columns inside the array what the body
    stores does not depend on how the weights' tile is filled out past the array's end, and is `a3 t` there. -/
theorem body_obligation1_exact (a3 : Fin cfg1.N → S512x1024.Idx → Elt F .f32) (c : Dev nD)
    (hloc : ∀ (t : Fin cfg1.N) (d : S512x1024.Idx → Elt F .f32),
      win1_3.cut (grid1.coords t) (pay1 (grid1.coords t) (iblk1 V c 0 t) (wtile V c t d) (iblk1 V c 2 t))
        = win1_3.cut (grid1.coords t) (a3 t)) :
    BodyObligationLoose (dat1 (F := F) V a3 c) (defs₀ (F := F)) Variants.none () Set.univ := fun t => by
  rw [bigSep_W1, bigSep_W1]
  simp only [before1_0, before1_1, before1_2]
  rw [show (dat1 V a3 c).Φ t.succ = (dat1 V a3 c).Φ t.castSucc from rfl,
    show (dat1 V a3 c).owesAt () t.succ = (dat1 V a3 c).owesAt () t.castSucc from rfl,
    after1_0, after1_1, after1_2, after1_3]
  -- the weights' post asks for the tile filled out with anything
  simp only [wtile_refill V c t]
  show _ ⊢ wp frame _ _ (bodyAt1 t) _
  unfold bodyAt1
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (wtile V c t d1) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexact H2
  -- the result's buffer holds the stored payload; inside the array that is `a3 t`, so filling the payload with
  -- `a3 t`'s columns there changes nothing
  iexists pay1 (grid1.coords t) (iblk1 V c 0 t) (wtile V c t d1) (iblk1 V c 2 t)
  rw [(win1 3).fill_congr_cut (grid1.coords t) (hloc t d1)]
  iexact H3

end Cert.Kernel.Hand

end
-- ==== Proof.BFold.lean ====
import proofs.«178207_j6897717477494_1_alg».proof.Proof.BDat
import Idealize.ShloMosaic.Lib.Pipeline.RegionsLoop
import Idealize.ShloMosaic.Lib.Pipeline.FrameSuffix
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The buffers' contents at each boundary of @main

@main is: region 0, the host reshape of the labels, region 1. Region 0 is entered from the launch memory; it leaves
its result array at what its one write-back leaves. Region 1 is entered from that, with the reshaped labels. -/

variable (m : (ℓ : Loc nD τ sig) → Buf (Elt F) ℓ)

/-- Core `c`'s buffers at launch. -/
abbrev W0 : Dev nD → Valuation τ sig (Elt F) := fun c b => m ((c : Dev nD), b)
/-- The same read at the TensorCore's references: what region 0 is entered from. -/
abbrev V1 : (c : Dev nD) → (b : Ref sig .tc) → Buf (Elt F) ((c : Thread nD τ).loc b) := fun c b => W0 m c b

/-- At region 0's exit: its arrays at what the pipeline leaves, every other buffer as launched. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host reshape: what region 1 is entered from. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- The host stretch is one reshape, whose only write is the labels' column: every other buffer keeps its contents. -/
private theorem hostOps1_keeps (V : Valuation τ sig (Elt F)) (r : Ref sig .tc) (h : r ≠ main_v1) :
    StableHlo.after (hostOps1 (F := F)) V (Proc.devRef .tc r) = V (Proc.devRef .tc r) :=
  StableHlo.after_of_forall_not_mem (b := Proc.devRef .tc r) _ _ fun op hop => by
    rw [List.mem_singleton] at hop
    subst hop
    rw [StableHlo.reshape_writes, Finset.mem_singleton]
    exact StableHlo.devRef_ne_of_ne h

/-- Region 1 finds the normalised embeddings region 0 wrote, -/
theorem V3_main_v0 (c : Dev nD) : V3 m c main_v0 = (dat0 (V1 m) c).arrAt 1 cfg0.N :=
  (hostOps1_keeps (W2 m c) main_v0 (by decide)).trans (W2_arr m c 1)
/-- the labels as a column, -/
theorem V3_main_v1 (c : Dev nD) :
    V3 m c main_v1 = shapeCast S512x1 (m ((c : Thread nD τ).loc main_arg1)) shapeCasts_S512_S512x1 := by
  show StableHlo.after hostOps1 (W2 m c) (Proc.devRef .tc main_v1) = _
  after_results
  rw [W2_of_ne m c main_arg1 (by decide)]
  rfl
/-- and the arguments as launched: the embeddings are region 0's input window, read and never written; the labels and
    the weights are no array of region 0. -/
theorem V3_main_arg0 (c : Dev nD) : V3 m c main_arg0 = m ((c : Thread nD τ).loc main_arg0) :=
  (hostOps1_keeps (W2 m c) main_arg0 (by decide)).trans
    ((W2_arr m c 0).trans (((dat0 (V1 m) c).arrAt_in 0 rfl _).trans (A_eq0 (V1 m) c 0)))
theorem V3_main_arg1 (c : Dev nD) : V3 m c main_arg1 = m ((c : Thread nD τ).loc main_arg1) :=
  (hostOps1_keeps (W2 m c) main_arg1 (by decide)).trans (W2_of_ne m c main_arg1 (by decide))
theorem V3_main_arg2 (c : Dev nD) : V3 m c main_arg2 = m ((c : Thread nD τ).loc main_arg2) :=
  (hostOps1_keeps (W2 m c) main_arg2 (by decide)).trans (W2_of_ne m c main_arg2 (by decide))

end Cert.Kernel.Hand

end
-- ==== Proof.BRunF.lean ====
import proofs.«178207_j6897717477494_1_alg».proof.Proof.BFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The run of @main with region 1's result forgotten

Where the arithmetic does not let the result's columns be named independently of the staging tail, region 1's result
window is forgotten: the body is handed that buffer at any contents and hands it back at any. Nothing runs after
region 1 and no control decision reads the result, so the run still terminates without fault and the arguments end as
launched. Stated at any float family. -/

variable (m : (ℓ : Loc nD τ sig) → Buf (Elt F) ℓ) (ρ : Dev nD → PrngReg)

namespace RunF

/-! ## The proof data of the two regions and what rides beside the buffers -/

/-- No pipeline has a prefetched table. -/
abbrev adm : (p : Fin 2) → (pcfgs (F := F) p).Adm := fun p => (cfgs p).toPCfg_adm

/-- The exact data, region by region, each at the contents its region is entered from; region 1's result contents
    are a filler nothing reads. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) (fun _ => zfill) c

/-- The same data read as relations, region 1's result window forgotten. -/
def rdats : (p : Fin 2) → (c : Dev nD) → Pipeline.RDat τ (Elt F) Unit ℕ (UR sig nD τ) ℕ (Pipeline.pin (pcfgs (F := F)) adm p) c
  | ⟨0, _⟩ => fun c => (dat0 (V1 m) c).toR
  | ⟨1, _⟩ => fun c => (dat1 (V3 m) (fun _ => zfill) c).toRForget fgt3

abbrev 𝒱₀ : Variants := Variants.none
/-- No core owes another anything: no level is assigned. -/
abbrev L : GSem nD τ sig → Finset Unit := fun _ => ∅
abbrev lv : GSem nD τ sig → Unit → ℕ := fun _ _ => 0

/-- Beside the buffers through every segment: the generator register at some state, and nothing owed. -/
abbrev R (c : Dev nD) : sProp 𝕄 := iprop((∃ r, prngReg c r) ∗ ∃ W, owes (c : Thread nD τ) (0 : CellTallies nD τ sig Unit) W)

/-- The one host operation allocates no buffer. -/
theorem host_fresh : (hostOps1 : List (HloOp τ sig (Elt F))).Forall fun op => op.fresh = ∅ := by
  simp only [List.Forall]; repeat' constructor

/-- The host reshape as a segment over the unscoped references, from region 0's exit contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp host_fresh) op h) (W2 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 1's exit: the inputs as entered, the result at contents nothing names -/

/-- Region 1's arrays at its exit, the result's at `X`. -/
def Fs (c : Dev nD) (X : Buf (Elt F) ((cfg1.win 3).arr.view.loc (c.tc : Thread nD τ))) :
    (w : Fin cfg1.W) → Buf (Elt F) ((cfg1.win w).arr.view.loc (c.tc : Thread nD τ)) :=
  Function.update (fun w => (dat1 (V3 m) (fun _ => zfill) c).A w) 3 X

/-- The buffers at region 1's exit: its arrays at `Fs`, every other buffer as entered. -/
def W4 (c : Dev nD) (X : Buf (Elt F) ((cfg1.win 3).arr.view.loc (c.tc : Thread nD τ))) : Valuation τ sig (Elt F) :=
  Pipeline.withArrays spec1 c (W3 m c) (Fs m c X)

theorem W4_arr (c : Dev nD) (X) (w : Fin cfg1.W) :
    W4 m c X (Proc.devRef .tc (Pipeline.arrRef spec1 w)) = Fs m c X w := by
  unfold W4; exact Pipeline.withArrays_arr spec1 launch1.win.arr_inj c _ _ w
theorem W4_of_ne (c : Dev nD) (X) (b : Ref sig .tc) (hb : ∀ w, Pipeline.arrRef spec1 w ≠ b) :
    W4 m c X (Proc.devRef .tc b) = W3 m c (Proc.devRef .tc b) := by
  unfold W4; exact Pipeline.withArrays_of_ne spec1 c _ _ b hb

/-- The arguments at the end: two bypass region 1, the third is its weights' array, an input. -/
theorem W4_main_arg0 (c : Dev nD) (X) : W4 m c X (Proc.devRef .tc main_arg0) = m ((c : Thread nD τ).loc main_arg0) :=
  (W4_of_ne m c X main_arg0 (by decide)).trans (V3_main_arg0 m c)
theorem W4_main_arg1 (c : Dev nD) (X) : W4 m c X (Proc.devRef .tc main_arg1) = m ((c : Thread nD τ).loc main_arg1) :=
  (W4_of_ne m c X main_arg1 (by decide)).trans (V3_main_arg1 m c)
theorem W4_main_arg2 (c : Dev nD) (X) : W4 m c X (Proc.devRef .tc main_arg2) = m ((c : Thread nD τ).loc main_arg2) :=
  (W4_arr m c X 1).trans ((Function.update_of_ne (by decide) _ _).trans (V3_main_arg2 m c))

/-- The last thread state: every unscoped buffer at region 1's exit contents for some result, the generator
    register at some state. -/
abbrev Tₙ (c : Dev nD) : sProp 𝕄 :=
  iprop(∃ X, StableHlo.held (c : Thread nD τ) (Pipeline.ucRefs τ sig) (W4 m c X) ∗ ∃ r, prngReg c r)

/-! ## The regions as segments -/

set_option backward.isDefEq.respectTransparency.types false in
/-- Region 0 over the thread state: entered from the launch contents, left with its arrays at what the pipeline
    leaves. Its arrays are split out of the unscoped buffers and put back; the generator register goes into the
    region's invariant and comes out; nothing is owed. -/
def reg0R : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).toR
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have harr : (rdats m 0 c).arraysAt (Pipeline.pin (pcfgs (F := F)) adm 0).N
        = ((pdats m 0 c).arrays ((pdats m 0 c).arrAt · cfg0.N) : sProp 𝕄) := (dat0 (V1 m) c).toR_arraysAt_eq cfg0.N
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    rw [harr]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- Region 1's arrays after every write-back: each input holds what the region was entered with, the result some
    contents. -/
theorem arraysAt_exit1 (c : Dev nD) :
    ((rdats m 1 c).arraysAt (Pipeline.pin (pcfgs (F := F)) adm 1).N : sProp 𝕄)
      ⊢ iprop(∃ X, (pdats m 1 c).arrays (Fs m c X)) := by
  show (((dat1 (V3 m) (fun _ => zfill) c).toRForget fgt3).arraysAt cfg1.N : sProp 𝕄)
    ⊢ iprop(∃ X, (dat1 (V3 m) (fun _ => zfill) c).arrays (Fs m c X))
  unfold Pipeline.RDat.arraysAt Pipeline.Dat.arrays
  rw [bigSep_W1]
  iintro ⟨⟨%F0, %h0, H0⟩, ⟨%F1, %h1, H1⟩, ⟨%F2, %h2, H2⟩, ⟨%F3, -, H3⟩⟩
  iexists F3
  rw [bigSep_W1]
  have e0 : Fs m c F3 0 = F0 := (Function.update_of_ne (by decide) _ _).trans
    ((((dat1 (V3 m) (fun _ => zfill) c).toRForget_arrAt_iff (fgt := fgt3) (w := 0) rfl cfg1.N F0).mp h0).trans
      ((dat1 (V3 m) (fun _ => zfill) c).arrAt_in 0 rfl cfg1.N)).symm
  have e1 : Fs m c F3 1 = F1 := (Function.update_of_ne (by decide) _ _).trans
    ((((dat1 (V3 m) (fun _ => zfill) c).toRForget_arrAt_iff (fgt := fgt3) (w := 1) rfl cfg1.N F1).mp h1).trans
      ((dat1 (V3 m) (fun _ => zfill) c).arrAt_in 1 rfl cfg1.N)).symm
  have e2 : Fs m c F3 2 = F2 := (Function.update_of_ne (by decide) _ _).trans
    ((((dat1 (V3 m) (fun _ => zfill) c).toRForget_arrAt_iff (fgt := fgt3) (w := 2) rfl cfg1.N F2).mp h2).trans
      ((dat1 (V3 m) (fun _ => zfill) c).arrAt_in 2 rfl cfg1.N)).symm
  have e3 : Fs m c F3 3 = F3 := Function.update_self ..
  rw [e0, e1, e2, e3]
  isplitl [H0]; · iexact H0
  isplitl [H1]; · iexact H1
  isplitl [H2]; · iexact H2
  iexact H3

/-- Region 1's exit contents read at the TensorCore's references. -/
abbrev V4 (c : Dev nD) (X : Buf (Elt F) ((cfg1.win 3).arr.view.loc (c.tc : Thread nD τ))) :
    (b : Ref sig .tc) → Buf (Elt F) ((c : Thread nD τ).loc b) := fun b => W4 m c X b

set_option backward.isDefEq.respectTransparency.types false in
/-- Region 1's arrays at their exit contents and the buffers that bypass it are every unscoped buffer at the exit
    valuation. -/
theorem join1 (c : Dev nD) (X : Buf (Elt F) ((cfg1.win 3).arr.view.loc (c.tc : Thread nD τ))) :
    iprop((pdats m 1 c).arrays (Fs m c X)
        ∗ Pipeline.unscopedRest (Ix := Unit) (Name := ℕ) (U := UR sig nD τ) (Lvl := ℕ) spec1 c (V3 m c))
      ⊢ (StableHlo.held (c : Thread nD τ) (Pipeline.ucRefs τ sig) (W4 m c X) : sProp 𝕄) := by
  have hjoin := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (V3 m c) (V4 m c X) (Fs m c X) (fun w => (W4_arr m c X w).symm)
    (fun b hb => W4_of_ne m c X b fun w e => hb (Finset.mem_image.mpr ⟨w, Finset.mem_univ _, e⟩))
  rw [Pipeline.unscopedBufs_held] at hjoin
  exact hjoin

set_option backward.isDefEq.respectTransparency.types false in
/-- Region 1 over the thread state: entered from the contents after the host reshape, left with its inputs as
    entered and its result at contents nothing names. -/
def reg1R : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1_forget (V3 m) _ c).toRForget
  hwaits := Pipeline.RDat.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    ihave Ha' := arraysAt_exit1 m c $$ Ha
    icases Ha' with ⟨%X, Ha⟩
    imodintro
    isplitl [Ha Hrest HY]
    · iexists X
      isplitl [Ha Hrest]
      · iapply (join1 m c X); isplitl [Ha] <;> iassumption
      iexact HY
    unfold Pipeline.RDat.owesAt Pipeline.owesWithin
    icases HO with ⟨%W, -, HO⟩; iexists W; iexact HO

/-! ## @main as segments -/

/-- @main's three segments in order: region 0 from the launch, the host reshape, region 1. -/
abbrev segs : List (Pipeline.RDat.Seg (pcfgs (F := F)) adm (rdats m) () defs₀ 𝒱₀ L lv) :=
  [ .region (reg0R m), .host (hseg m), .region (reg1R m) ]

/-- @main is the run of the segments: both are the chain of the same three items. -/
theorem main_run (c : Dev nD) : main (F := F) c = Pipeline.RDat.Seg.run (segs m) := (main_chain c).trans (by chain_rfl)

end RunF

set_option backward.isDefEq.respectTransparency.types false in
theorem frame_forget :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact Pipeline.RDat.θ_run_regions_kit (pcfgs (F := F)) RunF.adm (RunF.rdats m) () cellOf_inj emb₁ defs₀ RunF.𝒱₀ RunF.L RunF.lv m ρ main (RunF.segs m)
    (fun c Q => by rw [RunF.main_run m c])
    (by simp only [RunF.segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RunF.R c)) (Tₙ := RunF.Tₙ m)
    (hch := ⟨fun _ => .rfl, fun _ => .rfl, fun _ => .rfl, fun _ => .rfl⟩)
    (hinit := by
      refine Pipeline.initEach RunF.L RunF.lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      iintro ⟨⟨%X, Hh, -⟩, HSI⟩
      unfold StableHlo.held
      ihave Hr := (pointsTo_read_all (Pipeline.ucRefs τ sig) (fun b => ((c : Thread nD τ).1, b)) (RunF.W4 m c X) s') $$ [Hh HSI]
      · isplitl [Hh] <;> iassumption
      icases Hr with ⟨%h, HSI⟩
      imodintro
      isplitr
      · ipureintro
        exact ⟨(h _ (RunF.mem_uc main_arg0 (by decide))).trans (RunF.W4_main_arg0 m c X),
          (h _ (RunF.mem_uc main_arg1 (by decide))).trans (RunF.W4_main_arg1 m c X),
          (h _ (RunF.mem_uc main_arg2 (by decide))).trans (RunF.W4_main_arg2 m c X)⟩
      · iexact HSI)
    (hQ := fun _ h => h)

end Cert.Kernel.Hand

end
-- ==== Proof.KBody.lean ====
import proofs.«178207_j6897717477494_1_alg».proof.Proof.Gen.KernelIdeal.Launch
import proofs.«178207_j6897717477494_1_alg».proof.Proof.Gen.KernelIdeal.Skeleton
import proofs.«178207_j6897717477494_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The two kernel bodies as triples over their staging buffers

Region 0's body reads its input buffer whole and stores the row-normalised block; region 1's body reads the normalised
embeddings, one column tile of the weights and the labels, and stores the scaled margin logits of that tile. -/

/-- Reading back, through any view, one unmasked store made through the whole-shape rectangle at zero offsets gives
    the stored payload, whatever the contents were before: the rectangle holds every index. -/
private theorem read_store_unit_zero {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through that rectangle reads what the view reads. -/
private theorem load_unit_zero {Val : EltTy → Type} {sg : RefSig} {κ : Kind} {sp : Space}
    {S : Shape} {e : EltTy} (v : View sg κ sp S e) (f : v.ty.Contents Val) {off : Fin S.rank → Nat}
    (h : off = fun _ => 0) (inb : ∀ a, off a + S.size a ≤ S.size a) :
    v.readAt Val (Rect.unit off S.size inb).toLoadRect f = v.read Val f := by
  rw [View.readAt_eq_ld, View.ld_unit_zero h]

/-- The two zero offsets of a rank-two access are the constant zero function. -/
private theorem zeros2 : (![0, 0] : Fin 2 → Nat) = fun _ => 0 := funext fun a => by fin_cases a <;> rfl

/-- What region 1's body stores, as one function of the three input buffers' contents and the grid point. -/
def pay1 (i : grid1.Coords) (x0 : Vec F S512x512 .f32) (x1 : Vec F S512x1024 .f32) (x2 : Vec F S512x1 .i32) : Vec F S512x1024 .f32 :=
  k1_pay1 (k1_pay2 x1 x0) (k1_pay3 x1 x0) (k1_pay4 i) x2

/-- Region 0's body: the input buffer at `x0`, the output buffer at anything; it ends with the input as it was and
    the output holding `k0_pay1 x0`. -/
theorem sound_kernel0 (c : Dev nD) (E : Set ℕ) (i : grid0.Coords)
    (arg1 : Memref sig .tc .vmem S512x512 .f32) (harg1 : arg1.IsWhole) (arg2 : Memref sig .tc .vmem S512x512 .f32) (harg2 : arg2.IsWhole)
    (x0 : Vec F S512x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__norm_embeds_kernel i arg1 harg1 arg2 harg2) K := by
  simp only [cc0__norm_embeds_kernel_eq_skeleton]; unfold cc0__norm_embeds_kernel_skel
  unfold owns
  iintro ⟨⟨%f0, %hf0, H0⟩, ⟨%d1, %f1, -, H1⟩, Hk⟩
  subst hf0
  -- the two loads and the store run on the owned elements; the input's raw contents are untouched
  sl_exec
  sl_step
  iapply Hk
  isplitl [H0]
  · iexists f0; isplitr; · ipureintro; rfl
    iexact H0
  iexists _; isplitr
  swap; · iexact H1
  ipureintro
  -- the output reads the payload (one store over the whole buffer), and the payload's argument, loaded through the
  -- whole buffer, is what the input reads
  rw [read_store_unit_zero _ _ zeros2, load_unit_zero _ _ zeros2]

/-- Region 1's body: the three input buffers at `x0`, `x1`, `x2`, the output buffer at anything; it ends with the
    inputs as they were and the output holding `pay1 i x0 x1 x2`. -/
theorem sound_kernel1 (c : Dev nD) (E : Set ℕ) (i : grid1.Coords)
    (arg1 : Memref sig .tc .vmem S512x512 .f32) (harg1 : arg1.IsWhole) (arg2 : Memref sig .tc .vmem S512x1024 .f32) (harg2 : arg2.IsWhole)
    (arg3 : Memref sig .tc .vmem S512x1 .i32) (harg3 : arg3.IsWhole) (arg4 : Memref sig .tc .vmem S512x1024 .f32) (harg4 : arg4.IsWhole)
    (x0 : Vec F S512x512 .f32) (x1 : Vec F S512x1024 .f32) (x2 : Vec F S512x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (pay1 i x0 x1 x2)) -∗ K ⟨⟩))
      ⊢ wp frame (wpE (defs₀ (F := F)) Variants.none c none) E (cc1__margin_kernel i arg1 harg1 arg2 harg2 arg3 harg3 arg4 harg4) K := by
  simp only [cc1__margin_kernel_eq_skeleton, k1_part1_eq_skeleton]; unfold cc1__margin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  -- the first part's two loads, the labels' load, the dead load of the output and the store run on the owned
  -- elements; the three inputs' raw contents are untouched
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the first part's results are its payloads of the two loaded values; the output reads the stored payload (one
  -- store over the whole buffer), and each loaded value, read through its whole buffer, is what that input reads
  sl_unfold_run_names
  rw [read_store_unit_zero _ _ zeros2]
  simp only [load_unit_zero (S := S512x512) _ _ zeros2, load_unit_zero (S := S512x1024) _ _ zeros2,
    load_unit_zero (S := S512x1) _ _ zeros2]
  rfl

end Cert.KernelIdeal.Hand

end
-- ==== Proof.KDat.lean ====
import proofs.«178207_j6897717477494_1_alg».proof.Proof.KBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The proof data of the two pipelines, at the contents `V` the region is entered from

Region 0 has one grid point and whole blocks. Region 1 walks 98 column tiles of width 1024 over 100000 columns: the
weights' window and the result's window overhang the arrays at the last tile (672 columns inside), so both are loose:
of their staging buffers only the columns inside the array are stated. The result's contents after the body are a
parameter `a3`: named where the arithmetic allows it, forgotten where it does not. -/

variable (V : (c : Dev nD) → (b : Ref sig .tc) → Buf (Elt F) ((c : Thread nD τ).loc b))

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block at point `t` of region 1 (for a cut window: its part inside the array). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weights' tile at point `t` filled out past the array's end with `d`. -/
def wtile (c : Dev nD) (t : Fin cfg1.N) (d : S512x1024.Idx → Elt F .f32) : S512x1024.Idx → Elt F .f32 :=
  win1_1.fill (grid1.coords t) d (iblk1 V c 1 t)

/-- The filler the proof data uses past the array's end: the zero word. -/
abbrev zfill : S512x1024.Idx → Elt F .f32 := fun _ => Scalar.ofBits .f32 0#32

/-- Region 0's proof data: the input's buffer keeps its block, the output's holds the normalised block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

/-- Region 1's proof data: each input's buffer keeps its block (the weights' filled out with zeros), the result's
    holds `a3 t`. -/
def dat1 (a3 : Fin cfg1.N → S512x1024.Idx → Elt F .f32) (c : Dev nD) : Dat τ (Elt F) Unit ℕ (UR sig nD τ) ℕ cfg1 c where
  A w := V c (Pipeline.arrRef spec1 w)
  after w t := match w with
    | ⟨0, _⟩ => iblk1 V c 0 t
    | ⟨1, _⟩ => wtile V c t zfill
    | ⟨2, _⟩ => iblk1 V c 2 t
    | ⟨3, _⟩ => a3 t
  Φ _ := Pipeline.ΦA spec1 c
  q _ := fullShare
  owed _ := 0

/-- The mask that forgets region 1's result window. -/
abbrev fgt3 : Fin cfg1.W → Bool := fun | ⟨0, _⟩ => false | ⟨1, _⟩ => false | ⟨2, _⟩ => false | ⟨3, _⟩ => true | ⟨_ + 4, h⟩ => absurd h (Nat.not_lt.2 (Nat.le_add_left _ _))

/-! ## Region 0: one point, whole blocks -/

/-- The arrays of region 0's proof data are the contents the region is entered from. -/
theorem A_eq0 (c : Dev nD) (w : Fin cfg0.W) : (dat0 V c).A w = V c (Pipeline.arrRef spec0 w) := by
  dsimp only [dat0]

/-- What region 0's body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]

/-- The input's window is fetched at the one point and is not cut: its buffer holds the block. -/
theorem before0_0 (c : Dev nD) (t : Fin cfg0.N) (d) : (dat0 V c).before 0 t d = iblk0 V c 0 t := by
  unfold Dat.before
  rw [if_pos (fetch0_0 t)]
  unfold Dat.fetched Dat.blockOf iblk0
  rw [A_eq0]
  rfl

/-- Region 0's body obligation. -/
theorem body_obligation0 (c : Dev nD) : BodyObligation (dat0 (F := F) V c) (defs₀ (F := F)) Variants.none () Set.univ := fun t => by
  rw [bigSep_W0, bigSep_W0]
  simp only [before0_0]
  rw [show (dat0 V c).Φ t.succ = (dat0 V c).Φ t.castSucc from rfl,
    show (dat0 V c).owesAt () t.succ = (dat0 V c).owesAt () t.castSucc from rfl,
    after0_0, after0_1]
  show _ ⊢ wp frame _ _ (bodyAt0 t) _
  unfold bodyAt0
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-! ## Region 1: 98 column tiles, the weights' and the result's windows cut at the last -/

section Region1
variable (a3 : Fin cfg1.N → S512x1024.Idx → Elt F .f32)

/-- The arrays of region 1's proof data are the contents the region is entered from. -/
theorem A_eq1 (c : Dev nD) (w : Fin cfg1.W) : (dat1 V a3 c).A w = V c (Pipeline.arrRef spec1 w) := by
  dsimp only [dat1]

/-- What region 1's body leaves, window by window. -/
theorem after1_0 (c : Dev nD) (t : Fin cfg1.N) : (dat1 V a3 c).after 0 t = iblk1 V c 0 t := by dsimp only [dat1]
theorem after1_1 (c : Dev nD) (t : Fin cfg1.N) : (dat1 V a3 c).after 1 t = wtile V c t zfill := by dsimp only [dat1]
theorem after1_2 (c : Dev nD) (t : Fin cfg1.N) : (dat1 V a3 c).after 2 t = iblk1 V c 2 t := by dsimp only [dat1]
theorem after1_3 (c : Dev nD) (t : Fin cfg1.N) : (dat1 V a3 c).after 3 t = a3 t := by dsimp only [dat1]

/-- The block the proof data reads for window `w` at point `t` is `iblk1`'s. -/
theorem blockOf1 (c : Dev nD) (w : Fin cfg1.W) (t : Fin cfg1.N) : (dat1 V a3 c).blockOf w t = iblk1 V c w t := by
  unfold Dat.blockOf iblk1
  rw [A_eq1]

/-- The normalised embeddings' window is whole and its block index never moves: fetched at the first point, left in
    place by the body, its buffer holds the block at every point. -/
theorem before1_0 (c : Dev nD) (t : Fin cfg1.N) (d) : (dat1 V a3 c).before 0 t d = iblk1 V c 0 t := by
  have hkeep : ∀ s, (cfg1.win 0).cut (cfg1.grid.coords s) ((dat1 V a3 c).after 0 s) = (dat1 V a3 c).blockOf 0 s := fun s => by
    rw [after1_0, blockOf1]
  rw [(dat1 V a3 c).before_in_eq_fetched 0 rfl (fun _ => rfl) (fun _ _ _ => rfl) hkeep t d]
  unfold Dat.fetched
  rw [blockOf1]
  rfl

/-- The labels' window likewise. -/
theorem before1_2 (c : Dev nD) (t : Fin cfg1.N) (d) : (dat1 V a3 c).before 2 t d = iblk1 V c 2 t := by
  have hkeep : ∀ s, (cfg1.win 2).cut (cfg1.grid.coords s) ((dat1 V a3 c).after 2 s) = (dat1 V a3 c).blockOf 2 s := fun s => by
    rw [after1_2, blockOf1]
  rw [(dat1 V a3 c).before_in_eq_fetched 2 rfl (fun _ => rfl) (fun _ _ _ => rfl) hkeep t d]
  unfold Dat.fetched
  rw [blockOf1]
  rfl

/-- The weights' window is fetched at every point: its buffer holds the tile on the columns inside the array and what
    it held before, `d`, past the array's end. -/
theorem before1_1 (c : Dev nD) (t : Fin cfg1.N) (d) : (dat1 V a3 c).before 1 t d = wtile V c t d := by
  unfold Dat.before
  rw [if_pos (fetch1_1 t)]
  unfold Dat.fetched wtile
  rw [blockOf1]

/-- On the columns inside the array the tile filled out with zeros is the tile itself: putting those columns back over
    any `d` gives the tile filled out with `d`. -/
theorem wtile_refill (c : Dev nD) (t : Fin cfg1.N) (d : S512x1024.Idx → Elt F .f32) :
    (win1 1).fill (grid1.coords t) d ((win1 1).cut (grid1.coords t) (wtile V c t zfill)) = wtile V c t d := by
  rw [show (win1 1).cut (grid1.coords t) (wtile V c t zfill) = iblk1 V c 1 t from Window.cut_fill _ _ _ _]
  rfl

end Region1

/-- Region 1's body obligation with the result window forgotten: whatever `a3` is. -/
theorem body_obligation1_forget (a3 : Fin cfg1.N → S512x1024.Idx → Elt F .f32) (c : Dev nD) :
    BodyObligationLoose (dat1 (F := F) V a3 c) (defs₀ (F := F)) Variants.none () Set.univ fgt3 := fun t => by
  rw [bigSep_W1, bigSep_W1]
  simp only [before1_0, before1_1, before1_2]
  rw [show (dat1 V a3 c).Φ t.succ = (dat1 V a3 c).Φ t.castSucc from rfl,
    show (dat1 V a3 c).owesAt () t.succ = (dat1 V a3 c).owesAt () t.castSucc from rfl,
    after1_0, after1_1, after1_2]
  -- the weights' post asks for the tile filled out with anything
  simp only [wtile_refill V c t]
  show _ ⊢ wp frame _ _ (bodyAt1 t) _
  unfold bodyAt1
  iintro ⟨HΦ, Ho, ⟨%d0, H0⟩, ⟨%d1, H1⟩, ⟨%d2, H2⟩, ⟨%X, H3⟩⟩
  iapply (sound_kernel1 c Set.univ (grid1.coords t) _ _ _ _ _ _ _ _ (iblk1 V c 0 t) (wtile V c t d1) (iblk1 V c 2 t) _)
  isplitl [H0]; · iexact H0
  isplitl [H1]; · iexact H1
  isplitl [H2]; · iexact H2
  isplitl [H3]; · iexists X; iexact H3
  iintro ⟨H0, H1, H2, H3⟩
  isplitl [HΦ]; · iexact HΦ
  isplitl [Ho]; · iexact Ho
  isplitl [H0]; · iexact H0
  isplitl [H1]; · iexists d1; iexact H1
  isplitl [H2]; · iexact H2
  iexists _; iexact H3

/-- Region 1's body obligation with the result window named, when on the columns inside the array what the body
    stores does not depend on how the weights' tile is filled out past the array's end, and is `a3 t` there. -/
theorem body_obligation1_exact (a3 : Fin cfg1.N → S512x1024.Idx → Elt F .f32) (c : Dev nD)
    (hloc : ∀ (t : Fin cfg1.N) (d : S512x1024.Idx → Elt F .f32),
      win1_3.cut (grid1.coords t) (pay1 (grid1.coords t) (iblk1 V c 0 t) (wtile V c t d) (iblk1 V c 2 t))
        = win1_3.cut (grid1.coords t) (a3 t)) :
    BodyObligationLoose (dat1 (F := F) V a3 c) (defs₀ (F := F)) Variants.none () Set.univ := fun t => by
  rw [bigSep_W1, bigSep_W1]
  simp only [before1_0, before1_1, before1_2]
  rw [show (dat1 V a3 c).Φ t.succ = (dat1 V a3 c).Φ t.castSucc from rfl,
    show (dat1 V a3 c).owesAt () t.succ = (dat1 V a3 c).owesAt () t.castSucc from rfl,
    after1_0, after1_1, after1_2, after1_3]
  -- the weights' post asks for the tile filled out with anything
  simp only [wtile_refill V c t]
  show _ ⊢ wp frame _ _ (bodyAt1 t) _
  unfold bodyAt1
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (wtile V c t d1) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexact H2
  -- the result's buffer holds the stored payload; inside the array that is `a3 t`, so filling the payload with
  -- `a3 t`'s columns there changes nothing
  iexists pay1 (grid1.coords t) (iblk1 V c 0 t) (wtile V c t d1) (iblk1 V c 2 t)
  rw [(win1 3).fill_congr_cut (grid1.coords t) (hloc t d1)]
  iexact H3

end Cert.KernelIdeal.Hand

end
-- ==== Proof.KFold.lean ====
import proofs.«178207_j6897717477494_1_alg».proof.Proof.KDat
import Idealize.ShloMosaic.Lib.Pipeline.RegionsLoop
import Idealize.ShloMosaic.Lib.Pipeline.FrameSuffix
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The buffers' contents at each boundary of @main

@main is: region 0, the host reshape of the labels, region 1. Region 0 is entered from the launch memory; it leaves
its result array at what its one write-back leaves. Region 1 is entered from that, with the reshaped labels. -/

variable (m : (ℓ : Loc nD τ sig) → Buf (Elt F) ℓ)

/-- Core `c`'s buffers at launch. -/
abbrev W0 : Dev nD → Valuation τ sig (Elt F) := fun c b => m ((c : Dev nD), b)
/-- The same read at the TensorCore's references: what region 0 is entered from. -/
abbrev V1 : (c : Dev nD) → (b : Ref sig .tc) → Buf (Elt F) ((c : Thread nD τ).loc b) := fun c b => W0 m c b

/-- At region 0's exit: its arrays at what the pipeline leaves, every other buffer as launched. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host reshape: what region 1 is entered from. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- The host stretch is one reshape, whose only write is the labels' column: every other buffer keeps its contents. -/
private theorem hostOps1_keeps (V : Valuation τ sig (Elt F)) (r : Ref sig .tc) (h : r ≠ main_v1) :
    StableHlo.after (hostOps1 (F := F)) V (Proc.devRef .tc r) = V (Proc.devRef .tc r) :=
  StableHlo.after_of_forall_not_mem (b := Proc.devRef .tc r) _ _ fun op hop => by
    rw [List.mem_singleton] at hop
    subst hop
    rw [StableHlo.reshape_writes, Finset.mem_singleton]
    exact StableHlo.devRef_ne_of_ne h

/-- Region 1 finds the normalised embeddings region 0 wrote, -/
theorem V3_main_v0 (c : Dev nD) : V3 m c main_v0 = (dat0 (V1 m) c).arrAt 1 cfg0.N :=
  (hostOps1_keeps (W2 m c) main_v0 (by decide)).trans (W2_arr m c 1)
/-- the labels as a column, -/
theorem V3_main_v1 (c : Dev nD) :
    V3 m c main_v1 = shapeCast S512x1 (m ((c : Thread nD τ).loc main_arg1)) shapeCasts_S512_S512x1 := by
  show StableHlo.after hostOps1 (W2 m c) (Proc.devRef .tc main_v1) = _
  after_results
  rw [W2_of_ne m c main_arg1 (by decide)]
  rfl
/-- and the arguments as launched: the embeddings are region 0's input window, read and never written; the labels and
    the weights are no array of region 0. -/
theorem V3_main_arg0 (c : Dev nD) : V3 m c main_arg0 = m ((c : Thread nD τ).loc main_arg0) :=
  (hostOps1_keeps (W2 m c) main_arg0 (by decide)).trans
    ((W2_arr m c 0).trans (((dat0 (V1 m) c).arrAt_in 0 rfl _).trans (A_eq0 (V1 m) c 0)))
theorem V3_main_arg1 (c : Dev nD) : V3 m c main_arg1 = m ((c : Thread nD τ).loc main_arg1) :=
  (hostOps1_keeps (W2 m c) main_arg1 (by decide)).trans (W2_of_ne m c main_arg1 (by decide))
theorem V3_main_arg2 (c : Dev nD) : V3 m c main_arg2 = m ((c : Thread nD τ).loc main_arg2) :=
  (hostOps1_keeps (W2 m c) main_arg2 (by decide)).trans (W2_of_ne m c main_arg2 (by decide))

end Cert.KernelIdeal.Hand

end
-- ==== Proof.KRunX.lean ====
import proofs.«178207_j6897717477494_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The run of @main with every array named

Both regions' proof data name what each write-back leaves, so the run ends with the result array at what region 1's
98 write-backs leave (`Dat.arrAt`) and the arguments as launched. It needs region 1's body obligation with its
result window named, which holds where the stored columns inside the array do not depend on the staging tail (`hloc`). -/

variable (m : (ℓ : Loc nD τ sig) → Buf (Elt F) ℓ) (ρ : Dev nD → PrngReg)

section Walk

variable (a3 : Dev nD → Fin cfg1.N → S512x1024.Idx → Elt F .f32)

/-! ## The last boundary: the buffers' contents when region 1 is left -/

/-- At region 1's exit: each of its arrays at what its write-backs leave (an input array as found), every other buffer
    as the region found it. -/
private def W4 (c : Dev nD) : Valuation τ sig (Elt F) :=
  Pipeline.withArrays spec1 c (W3 m c) fun w => (dat1 (V3 m) (a3 c) c).arrAt w cfg1.N
private theorem W4_arr (c : Dev nD) (w : Fin cfg1.W) :
    W4 m a3 c (Proc.devRef .tc (Pipeline.arrRef spec1 w)) = (dat1 (V3 m) (a3 c) c).arrAt w cfg1.N := by
  unfold W4; exact Pipeline.withArrays_arr spec1 launch1.win.arr_inj c _ _ w
private theorem W4_of_ne (c : Dev nD) (b : Ref sig .tc) (hb : ∀ w, Pipeline.arrRef spec1 w ≠ b) :
    W4 m a3 c (Proc.devRef .tc b) = W3 m c (Proc.devRef .tc b) := by
  unfold W4; exact Pipeline.withArrays_of_ne spec1 c _ _ b hb
private abbrev V4 : (c : Dev nD) → (b : Ref sig .tc) → Buf (Elt F) ((c : Thread nD τ).loc b) := fun c b => W4 m a3 c b
private theorem hF1 (c : Dev nD) (w : Fin cfg1.W) :
    (dat1 (V3 m) (a3 c) c).arrAt w cfg1.N = V4 m a3 c (Pipeline.arrRef spec1 w) :=
  (W4_arr m a3 c w).symm
private theorem hrest1 (c : Dev nD) : ∀ b, b ∉ Finset.univ.image (Pipeline.arrRef spec1) → V4 m a3 c b = V3 m c b :=
  fun b hb => W4_of_ne m a3 c b fun w e => hb (Finset.mem_image.mpr ⟨w, Finset.mem_univ _, e⟩)

/-- The result array is region 1's fourth window. -/
private theorem W4_main_v2 (c : Dev nD) :
    W4 m a3 c (Proc.devRef .tc main_v2) = (dat1 (V3 m) (a3 c) c).arrAt 3 cfg1.N := W4_arr m a3 c 3
/-- The embeddings and the labels are no array of region 1; the weights are its second window, an input. -/
private theorem W4_main_arg0 (c : Dev nD) : W4 m a3 c (Proc.devRef .tc main_arg0) = m ((c : Thread nD τ).loc main_arg0) :=
  (W4_of_ne m a3 c main_arg0 (by decide)).trans (V3_main_arg0 m c)
private theorem W4_main_arg1 (c : Dev nD) : W4 m a3 c (Proc.devRef .tc main_arg1) = m ((c : Thread nD τ).loc main_arg1) :=
  (W4_of_ne m a3 c main_arg1 (by decide)).trans (V3_main_arg1 m c)
private theorem W4_main_arg2 (c : Dev nD) : W4 m a3 c (Proc.devRef .tc main_arg2) = m ((c : Thread nD τ).loc main_arg2) :=
  (W4_arr m a3 c 1).trans (((dat1 (V3 m) (a3 c) c).arrAt_in 1 rfl _).trans (V3_main_arg2 m c))

/-! ## The proof data of both pipelines, and what rides beside the buffers -/

/-- Neither pipeline has a prefetched table: the admissible contents are the trivial ones. -/
private abbrev adm : (p : Fin 2) → (pcfgs (F := F) p).Adm := fun p => (cfgs p).toPCfg_adm
/-- The reshape allocates no buffer. -/
private theorem hostOps1_fresh : (hostOps1 : List (HloOp τ sig (Elt F))).Forall fun op => op.fresh = ∅ := by
  simp only [List.Forall]; repeat' constructor
/-- Region 0's proof data at the launch contents, region 1's at the contents after the reshape. -/
private def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) (a3 c) c
private abbrev 𝒱₀ : Variants := Variants.none
/-- No core waits on another: no level is assigned. -/
private abbrev L : GSem nD τ sig → Finset Unit := fun _ => ∅
private abbrev lv : GSem nD τ sig → Unit → ℕ := fun _ _ => 0
/-- Beside the buffers a core carries its generator register, at some state, and its dues, which are none. -/
private abbrev R (c : Dev nD) : sProp 𝕄 :=
  iprop((∃ r, prngReg c r) ∗ ∃ W, owes (c : Thread nD τ) (0 : CellTallies nD τ sig Unit) W)
/-- The reshape as a segment over every unscoped buffer, from region 0's exit contents. -/
private abbrev hseg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R
/-- An unscoped reference of the TensorCore is among those the thread state holds. -/
private theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩
/-- The last thread state, the dues apart: every unscoped buffer at the last boundary's contents, the register. -/
private abbrev Tₙ (c : Dev nD) : sProp 𝕄 :=
  iprop(StableHlo.held (c : Thread nD τ) (Pipeline.ucRefs τ sig) (W4 m a3 c) ∗ ∃ r, prngReg c r)

/-! ## The two regions as segments -/

set_option backward.isDefEq.respectTransparency.types false in
/-- Region 0, entered from the launch contents and left at `W2`: its two arrays are split out of the unscoped buffers
    and put back at what the pipeline leaves; the register passes through the invariant; nothing is owed. -/
private def reg0 : Pipeline.RegionSeg (pcfgs (F := F)) adm (pdats m a3) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m a3) launch0.win launch0.arr_whole c
      ((pdats m a3 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m a3) ((pdats m a3 0 c).share_full fun _ => rfl)
      (V1 m c) (V2 m c) ((pdats m a3 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from the contents after the reshape and left at `W4`, which is what the run ends with: its four
    arrays are split out of the unscoped buffers and put back at what the pipeline leaves; the body obligation is the one
    with the result window named. -/
private def reg1 (hloc : ∀ (c : Dev nD) (t : Fin cfg1.N) (d : S512x1024.Idx → Elt F .f32),
      win1_3.cut (grid1.coords t) (pay1 (grid1.coords t) (iblk1 (V3 m) c 0 t) (wtile (V3 m) c t d) (iblk1 (V3 m) c 2 t))
        = win1_3.cut (grid1.coords t) (a3 c t)) :
    Pipeline.RegionSeg (pcfgs (F := F)) adm (pdats m a3) () defs₀ 𝒱₀ L lv 1 where
  win := launch1.win.to₀
  block_pos := launch1.block_pos
  stage_whole := launch1.stage_whole
  K := PEmpty
  osem k := k.elim
  ho := Pipeline.OwnSemFacts.none _
  hbody c := body_obligation1_exact (V3 m) (a3 c) c (hloc c)
  hwaits := Pipeline.hwaits_of_owed_zero _ _ _ _ L lv 1 fun _ _ => rfl
  pre c := iprop(StableHlo.held (c : Thread nD τ) (Pipeline.ucRefs τ sig) (W3 m c) ∗ R c)
  post c := iprop(Tₙ m a3 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m a3) launch1.win launch1.arr_whole c
      ((pdats m a3 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m a3) ((pdats m a3 1 c).share_full fun _ => rfl)
      (V3 m c) (V4 m a3 c) ((pdats m a3 1 c).arrAt · cfg1.N) (hF1 m a3 c) (hrest1 m a3 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Walk

-- the launch theorem's implicit arguments are found by unifying its conclusion with the statement below; that
-- unification has to unfold plain definitions inside a metavariable's type
set_option backward.isDefEq.respectTransparency.types false in
/-- Every weakly fair execution of @main terminates without fault; at the end the result array holds what region 1's
    write-backs leave and each argument what it was launched with: the launch over the three segments, the last thread
    state read against the final memory, each buffer walked back through the boundaries' contents. -/
theorem run_value (a3 : Dev nD → Fin cfg1.N → S512x1024.Idx → Elt F .f32)
    (hloc : ∀ (c : Dev nD) (t : Fin cfg1.N) (d : S512x1024.Idx → Elt F .f32),
      win1_3.cut (grid1.coords t) (pay1 (grid1.coords t) (iblk1 (V3 m) c 0 t) (wtile (V3 m) c t d) (iblk1 (V3 m) c 2 t))
        = win1_3.cut (grid1.coords t) (a3 c t)) :
    θ_run defs (onTc (τ := τ) (main (F := F))) ⟨m, fun _ => 0, ρ⟩ (fun r => ∀ c : Dev nD,
      r.2.mem ((c.tc : Thread nD τ).loc main_v2) = (dat1 (V3 m) (a3 c) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m a3) () cellOf_inj emb₁ defs₀ 𝒱₀ L lv m ρ main
    [.region (reg0 m a3), .host (hseg m), .region (reg1 m a3 hloc)]
    (fun c Q => by
      rw [main_segs adm (pdats m a3) () 𝒱₀ L lv (hseg m) (reg0 m a3) (reg1 m a3 hloc) rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m a3)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m a3 c b)
    (hfin := fun c s' => by
      iintro ⟨⟨Hh, -⟩, HSI⟩
      unfold StableHlo.held
      imodintro
      iapply (pointsTo_read_all (Pipeline.ucRefs τ sig) (fun b => (((c : Thread nD τ)).1, b)) (W4 m a3 c) s')
      isplitl [Hh] <;> iassumption)
    (hQ := fun s h c =>
      ⟨(h c _ (mem_uc main_v2 (by decide))).trans (W4_main_v2 m a3 c),
       (h c _ (mem_uc main_arg0 (by decide))).trans (W4_main_arg0 m a3 c),
       (h c _ (mem_uc main_arg1 (by decide))).trans (W4_main_arg1 m a3 c),
       (h c _ (mem_uc main_arg2 (by decide))).trans (W4_main_arg2 m a3 c)⟩)

end Cert.KernelIdeal.Hand

end
-- ==== Proof.KArr.lean ====
import proofs.«178207_j6897717477494_1_alg».proof.Proof.KDat
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-! # From blocks to arrays

Region 0 has one point whose block is the whole array. Region 1's tile `t` covers columns `1024 t … 1024 t + 1023` of
the 100000; the last tile has 672 of them inside the array. A column `q` of tile `t` is inside the array exactly
when `1024 t + q < 100000`; those are the entries a fetch moves in and a write-back moves out. -/

variable (V : (c : Dev nD) → (b : Ref sig .tc) → Buf (Elt F) ((c : Thread nD τ).loc b))

/-- Where region 1's weights' tile sits and how much of it lies inside the array: block index `(0, t)`, all 512
    rows, and `min 1024 (100000 - 1024 t)` columns. -/
private theorem tile1_facts : ∀ t : Fin grid1.N, win1_1.index t 0 = 0 ∧ win1_1.index t 1 = t.val
    ∧ win1_1.xsize (grid1.coords t) 0 = 512 ∧ win1_1.xsize (grid1.coords t) 1 = min 1024 (100000 - 1024 * t.val) := by
  decide +kernel

/-- The same for the result's tile. -/
private theorem tile3_facts : ∀ t : Fin grid1.N, win1_3.index t 0 = 0 ∧ win1_3.index t 1 = t.val
    ∧ win1_3.xsize (grid1.coords t) 0 = 512 ∧ win1_3.xsize (grid1.coords t) 1 = min 1024 (100000 - 1024 * t.val) := by
  decide +kernel

/-- Region 0 leaves its result array holding the normalised embeddings. -/
theorem arrAt0_eq (c : Dev nD) (y : S512x512.Idx) :
    (dat0 V c).arrAt 1 cfg0.N y = k0_pay1 (V c main_arg0) y := by
  have hN : cfg0.N = 1 := by decide +kernel
  have hi0 : ∀ t : Fin grid0.N, ∀ a, win0_0.index t a = 0 := by decide +kernel
  have hi1 : ∀ t : Fin grid0.N, ∀ a, win0_1.index t a = 0 := by decide +kernel
  have t : Fin cfg0.N := ⟨0, by rw [hN]; exact Nat.one_pos⟩
  -- the one block of the result is the whole array, entry for entry
  have hy : ((cfg0.win 1).blk t).view.emb y = y := by
    show (win0_1.rect t).emb y = y
    funext a
    apply Fin.ext
    exact win0_1.rect_emb_val_of_index_zero t a (hi1 t a) y
  -- a grid of one point has no two blocks to keep apart
  have h := (dat0 V c).arrAt_emb_eq_flushed 1
    (fun t t' _ _ hne => absurd (Fin.ext (by have := t.isLt; have := t'.isLt; omega)) hne) t (flush0_1 t) y
  rw [hy] at h
  rw [h]
  show (dat0 V c).after 1 t y = k0_pay1 (V c main_arg0) y
  rw [after0_1]
  -- and so is the one block of the input
  have hin : iblk0 V c 0 t = V c main_arg0 := by
    funext x
    unfold iblk0
    rw [View.read_apply]
    show V c main_arg0 ((win0_0.rect t).emb x) = V c main_arg0 x
    congr 1
    funext a
    apply Fin.ext
    exact win0_0.rect_emb_val_of_index_zero t a (hi0 t a) x
  rw [hin]

/-- In region 1 the embeddings' and the labels' blocks are their whole arrays, at every point. -/
theorem iblk1_0_apply (c : Dev nD) (t : Fin cfg1.N) (y : S512x512.Idx) : iblk1 V c 0 t y = V c main_v0 y := by
  have hi : ∀ t : Fin grid1.N, ∀ a, win1_0.index t a = 0 := by decide +kernel
  unfold iblk1
  rw [View.read_apply]
  show V c main_v0 ((win1_0.rect t).emb y) = V c main_v0 y
  congr 1
  funext a
  apply Fin.ext
  exact win1_0.rect_emb_val_of_index_zero t a (hi t a) y
theorem iblk1_2_apply (c : Dev nD) (t : Fin cfg1.N) (y : S512x1.Idx) : iblk1 V c 2 t y = V c main_v1 y := by
  have hi : ∀ t : Fin grid1.N, ∀ a, win1_2.index t a = 0 := by decide +kernel
  unfold iblk1
  rw [View.read_apply]
  show V c main_v1 ((win1_2.rect t).emb y) = V c main_v1 y
  congr 1
  funext a
  apply Fin.ext
  exact win1_2.rect_emb_val_of_index_zero t a (hi t a) y

/-- A column of the weights' tile that lies inside the array holds the array's entry, however the tile is filled
    out past the array's end. -/
theorem wtile_apply (c : Dev nD) (t : Fin cfg1.N) (d : S512x1024.Idx → Elt F .f32) (k : Fin 512) (q : Fin 1024)
    (hq : t.val * 1024 + q.val < 100000) :
    wtile V c t d (ix2 k q) = V c main_arg2 (ix2 k (⟨t.val * 1024 + q.val, hq⟩ : Fin 100000)) := by
  obtain ⟨h0, h1, hs0, hs1⟩ := tile1_facts t
  -- the entry is one the fetch moves: its row is below 512 and its column inside the array
  have hm : win1_1.moved (grid1.coords t) (ix2 k q) = true := by
    rw [Window.moved_iff]
    intro a
    match a with
    | ⟨0, _⟩ => show k.val < win1_1.xsize (grid1.coords t) 0; rw [hs0]; exact k.isLt
    | ⟨1, _⟩ => show q.val < win1_1.xsize (grid1.coords t) 1; rw [hs1]; have := q.isLt; omega
  unfold wtile Window.fill
  rw [dif_pos hm]
  unfold iblk1
  rw [View.read_apply]
  show V c main_arg2 ((win1_1.rect t).emb _) = V c main_arg2 _
  congr 1
  funext a
  apply Fin.ext
  rw [Window.rect_emb_val]
  match a with
  | ⟨0, _⟩ => show win1_1.index t 0 * 512 + k.val = k.val; rw [h0]; omega
  | ⟨1, _⟩ => show win1_1.index t 1 * 1024 + q.val = t.val * 1024 + q.val; rw [h1]

/-- Two contents of the result's staging buffer that agree on the columns inside the array are written back alike. -/
theorem cut3_ext (t : Fin cfg1.N) (X Y : S512x1024.Idx → Elt F .f32)
    (h : ∀ (p : Fin 512) (q : Fin 1024), t.val * 1024 + q.val < 100000 → X (ix2 p q) = Y (ix2 p q)) :
    win1_3.cut (grid1.coords t) X = win1_3.cut (grid1.coords t) Y := by
  obtain ⟨h0, h1, hs0, hs1⟩ := tile3_facts t
  funext j
  have hj0 : (j 0).val < win1_3.xsize (grid1.coords t) 0 := (j 0).isLt
  have hj1 : (j 1).val < win1_3.xsize (grid1.coords t) 1 := (j 1).isLt
  rw [hs0] at hj0
  rw [hs1] at hj1
  -- an index of the part inside the array, as a row below 512 and a column below 1024
  have e : win1_3.xinj (grid1.coords t) j = ix2 (⟨(j 0).val, hj0⟩ : Fin 512) (⟨(j 1).val, by omega⟩ : Fin 1024) := by
    funext a
    match a with
    | ⟨0, _⟩ => rfl
    | ⟨1, _⟩ => rfl
  show X (win1_3.xinj (grid1.coords t) j) = Y (win1_3.xinj (grid1.coords t) j)
  rw [e]
  exact h _ _ (by show t.val * 1024 + (j 1).val < 100000; omega)

private theorem grid1_N : cfg1.N = 98 := by decide +kernel

/-- What region 1's proof data says the result's buffer holds after the body. -/
private theorem result_after3 (a3 : Fin cfg1.N → S512x1024.Idx → Elt F .f32) (c : Dev nD) (t : Fin cfg1.N) :
    (dat1 V a3 c).after 3 t = a3 t := by dsimp only [dat1]

/-- An entry of the result array lies in tile `t`'s part inside the array exactly when its column is one of the
    tile's 1024 (every row is: the tiles span the rows, and the array ends where the last tile is cut). -/
private theorem mem_tile3 (t : Fin cfg1.N) (i : S512x100000.Idx) :
    i ∈ ((cfg1.win 3).blk t).view.set ↔ t.val * 1024 ≤ (i 1).val ∧ (i 1).val < t.val * 1024 + 1024 := by
  obtain ⟨h0, h1, hs0, hs1⟩ := tile3_facts t
  have hi0 : (i 0).val < 512 := (i 0).isLt
  have hi1 : (i 1).val < 100000 := (i 1).isLt
  show i ∈ ((View.whole main_v2).slice (win1_3.rect t)).set ↔ _
  rw [View.set_slice_whole, Rect.mem_set_unit]
  constructor
  · intro hm
    have := hm 1
    change win1_3.index t 1 * 1024 ≤ (i 1).val ∧ (i 1).val < win1_3.index t 1 * 1024 + win1_3.xsize (grid1.coords t) 1 at this
    rw [h1, hs1] at this
    clear h0 h1 hs0 hs1
    omega
  · intro hm a
    match a with
    | ⟨0, _⟩ =>
      show win1_3.index t 0 * 512 ≤ (i 0).val ∧ (i 0).val < win1_3.index t 0 * 512 + win1_3.xsize (grid1.coords t) 0
      rw [h0, hs0]
      exact ⟨Nat.zero_le _, by rw [Nat.zero_mul, Nat.zero_add]; exact hi0⟩
    | ⟨1, _⟩ =>
      show win1_3.index t 1 * 1024 ≤ (i 1).val ∧ (i 1).val < win1_3.index t 1 * 1024 + win1_3.xsize (grid1.coords t) 1
      rw [h1, hs1]
      clear h0 h1 hs0 hs1
      omega

/-- What tile `t`'s write-back writes is `Gf` read through the tile's part inside the array. -/
private theorem flushed3_eq (a3 : Fin cfg1.N → S512x1024.Idx → Elt F .f32) (c : Dev nD) (Gf : S512x100000.Idx → Elt F .f32)
    (h : ∀ (t : Fin cfg1.N) (p : Fin 512) (q : Fin 1024) (hq : t.val * 1024 + q.val < 100000),
      a3 t (ix2 p q) = Gf (ix2 p (⟨t.val * 1024 + q.val, hq⟩ : Fin 100000)))
    (t : Fin cfg1.N) :
    (dat1 V a3 c).flushed 3 t = ((cfg1.win 3).blk t).view.read (Elt F) Gf := by
  obtain ⟨h0, h1, hs0, hs1⟩ := tile3_facts t
  funext j
  have hj0 : (j 0).val < win1_3.xsize (grid1.coords t) 0 := (j 0).isLt
  have hj1 : (j 1).val < win1_3.xsize (grid1.coords t) 1 := (j 1).isLt
  rw [hs0] at hj0
  rw [hs1] at hj1
  have e : win1_3.xinj (grid1.coords t) j = ix2 (⟨(j 0).val, hj0⟩ : Fin 512) (⟨(j 1).val, by omega⟩ : Fin 1024) := by
    funext a
    match a with
    | ⟨0, _⟩ => rfl
    | ⟨1, _⟩ => rfl
  have hq : t.val * 1024 + (j 1).val < 100000 := by omega
  rw [View.read_apply]
  show (dat1 V a3 c).after 3 t (win1_3.xinj (grid1.coords t) j) = Gf ((win1_3.rect t).emb j)
  rw [result_after3, e, h t _ _ hq]
  congr 1
  funext a
  apply Fin.ext
  rw [Window.rect_emb_val]
  match a with
  | ⟨0, _⟩ => show (j 0).val = win1_3.index t 0 * 512 + (j 0).val; rw [h0]; omega
  | ⟨1, _⟩ => show t.val * 1024 + (j 1).val = win1_3.index t 1 * 1024 + (j 1).val; rw [h1]

/-- If at every point the result's buffer holds, on the columns inside the array, the entries of one whole array
    `Gf`, then after the 98 write-backs the result array is `Gf`. -/
theorem arrAt1_eq (a3 : Fin cfg1.N → S512x1024.Idx → Elt F .f32) (c : Dev nD) (Gf : S512x100000.Idx → Elt F .f32)
    (h : ∀ (t : Fin cfg1.N) (p : Fin 512) (q : Fin 1024) (hq : t.val * 1024 + q.val < 100000),
      a3 t (ix2 p q) = Gf (ix2 p (⟨t.val * 1024 + q.val, hq⟩ : Fin 100000)))
    (y : S512x100000.Idx) :
    (dat1 V a3 c).arrAt 3 cfg1.N y = Gf y := by
  refine congrFun ((dat1 V a3 c).arrAt_eq_of_cover 3 Gf (fun t _ => flushed3_eq V a3 c Gf h t) fun i => ?_) y
  -- the tile that covers column `n` is tile `n / 1024`
  have hi1 : (i 1).val < 100000 := (i 1).isLt
  refine ⟨⟨(i 1).val / 1024, by rw [grid1_N]; omega⟩, flush1_3 _, ?_⟩
  rw [mem_tile3]
  show (i 1).val / 1024 * 1024 ≤ (i 1).val ∧ (i 1).val < (i 1).val / 1024 * 1024 + 1024
  omega

end Cert.KernelIdeal.Hand

end
-- ==== Proof.Spec.lean ====
import Idealize.ShloMosaic.PureOps.Ideal
import Idealize.ShloMosaic.PureOps.Ideal.Laws
import Idealize.ShloMosaic.Lib.ValueIdx

/-!
# The margin logits as a function of the three arrays, over the extended reals

Rows of the embeddings and columns of the weights are scaled to unit length (with a floor under the squared length), the
cosine of a row against a column is their inner product, the cosine is clipped into an open-ended interval just inside
`[-1, 1]`, at the row's label column the additive angular margin is applied, and everything is scaled by 64. The float
literals stay as the words the two programs carry: both sides name the same word and it is never evaluated.
-/

noncomputable section

open scoped BigOperators

namespace Cert.Spec

open Idealize.ShloMosaic

/-- The floor under a squared length. -/
abbrev eps : EReal := Ideal.ofBits .f32 0x2B8CBCCC#32
/-- The lower end of the clipping interval. -/
abbrev lo : EReal := Ideal.ofBits .f32 0xBF7FFFEF#32
/-- The upper end of the clipping interval. -/
abbrev hi : EReal := Ideal.ofBits .f32 0x3F7FFFEF#32
/-- The word of one. -/
abbrev one : EReal := Ideal.ofBits .f32 0x3F800000#32
/-- The floor under the squared sine. -/
abbrev tiny : EReal := Ideal.ofBits .f32 0x358637BD#32
/-- The cosine of the margin. -/
abbrev cosm : EReal := Ideal.ofBits .f32 0x3F60A940#32
/-- The sine of the margin. -/
abbrev sinm : EReal := Ideal.ofBits .f32 0x3EF57744#32
/-- The threshold below which the margin is replaced by a linear penalty. -/
abbrev th : EReal := Ideal.ofBits .f32 0xBF60A940#32
/-- The linear penalty. -/
abbrev mm : EReal := Ideal.ofBits .f32 0x3E757744#32
/-- The scale, 64. -/
abbrev s64 : EReal := Ideal.ofBits .f32 0x42800000#32
/-- The word of zero, the value a sum starts from. -/
abbrev zero : EReal := Ideal.ofBits .f32 0x00000000#32

/-- The reciprocal length of a vector of 512 entries: the reciprocal square root of its squared length, floored. -/
def nrm (v : Fin 512 → EReal) : EReal :=
  Ideal.rsqrt (max (zero + ∑ k, v k * v k) eps)

/-- A row scaled to unit length, at one entry. -/
def en (row : Fin 512 → EReal) (k : Fin 512) : EReal := row k * nrm row

/-- The cosine: the inner product of an (already scaled) row with a column scaled to unit length. -/
def cosv (erow wcol : Fin 512 → EReal) : EReal :=
  ∑ k, erow k * (wcol k * nrm wcol)

/-- The clipping of a cosine. -/
def clipc (x : EReal) : EReal := min hi (max lo x)

/-- The additive angular margin at a clipped cosine `x`: `cos (θ + m)` by the addition formula, with the sine taken
    as the square root of the clipped `1 - x²`; below the threshold the linear penalty instead. -/
def marg (x : EReal) : EReal :=
  if th < x then x * cosm - Ideal.sqrt (min one (max tiny (one - x * x))) * sinm else x - mm

/-- One logit: the clipped cosine, with the margin where the column is the row's label, scaled. -/
def cell (erow wcol : Fin 512 → EReal) (lab col : BitVec 32) : EReal :=
  (if lab = col then marg (clipc (cosv erow wcol)) else clipc (cosv erow wcol)) * s64

/-- The whole array of logits from the raw embeddings, the labels and the raw weights. -/
def G (e : Fin 512 → Fin 512 → EReal) (lab : Fin 512 → BitVec 32) (w : Fin 512 → Fin 100000 → EReal)
    (p : Fin 512) (q : Fin 100000) : EReal :=
  cell (en (e p)) (fun k => w k q) (lab p) (BitVec.ofNat 32 q.val)

end Cert.Spec

end
-- ==== Proof.KPay.lean ====
import proofs.«178207_j6897717477494_1_alg».proof.Proof.KBody
import proofs.«178207_j6897717477494_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# What the two kernel bodies store, read at one element

Over the extended reals every elementwise operation reads through at an index, a sum along an axis is the sum over that
axis's coordinate, the matrix product into a zero accumulator is the sum over the contracted coordinate of the products,
and a change of format is the identity. So the block the first body stores is, at `(p, k)`, the entry `k` of row `p`
scaled to unit length; and the block the second body stores is, at `(p, q)`, the margin logit of the (already scaled)
row `p` against column `q` of the weight tile, the column's global number being the tile's number times 1024 plus `q`.
-/

set_option maxRecDepth 16384

noncomputable section

open scoped BigOperators

namespace Cert.KernelIdeal.Hand

open Cert.KernelIdeal Cert.KernelIdeal.Gen
open Idealize.ShloMosaic Idealize.ShloMosaic.ValueIdx

/-! ## Layout operations on a column of row values and on a row of column values -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane sums -/

/-- The sum along the second axis of a `[512, 512]` block, at row `p`: the sum over the row's entries. -/
theorem rowsum_apply (y : FVec Ideal S512x512 .f32) (hφ : FKind.Formats .f32)
    (hacc : (0x00000000#32 : BitVec 32) = FKind.add.neutral .f32 hφ) (p : Fin 512) :
    multiReduction (F := Ideal) .add [1] S512 y 0x00000000#32 reduces_S512x512_S512 hφ hacc (ix1 p)
      = ∑ k : Fin 512, y (ix2 p k) := by
  refine (Ideal.multiReduction_add_single y _ reduces_S512x512_S512 hφ hacc (ix1 p)).trans ?_
  refine Finset.sum_congr rfl fun k _ => congrArg y (funext fun a => Fin.ext ?_)
  match a with
  | ⟨0, _⟩ => rfl
  | ⟨1, _⟩ => rfl

/-- The sum along the first axis of a `[512, 1024]` block, at column `q`: the sum over the column's entries. -/
theorem colsum_apply (y : FVec Ideal S512x1024 .f32) (hφ : FKind.Formats .f32)
    (hacc : (0x00000000#32 : BitVec 32) = FKind.add.neutral .f32 hφ) (q : Fin 1024) :
    multiReduction (F := Ideal) .add [0] S1024 y 0x00000000#32 reduces_S512x1024_S1024 hφ hacc (ix1 q)
      = ∑ k : Fin 512, y (ix2 k q) := by
  refine (Ideal.multiReduction_add_single y _ reduces_S512x1024_S1024 hφ hacc (ix1 q)).trans ?_
  refine Finset.sum_congr rfl fun k _ => congrArg y (funext fun a => Fin.ext ?_)
  match a with
  | ⟨0, _⟩ => rfl
  | ⟨1, _⟩ => rfl

/-! ## The first body: a row scaled to unit length -/

theorem k0_pay1_apply (x : Vec Ideal S512x512 .f32) (p k : Fin 512) :
    k0_pay1 (F := Ideal) x (ix2 p k) = Cert.Spec.en (fun k' => x (ix2 p k')) k := by
  unfold k0_pay1 Cert.Spec.en Cert.Spec.nrm
  refine congrArg (x (ix2 p k) * ·) ?_
  refine (broadcastTo_a1_ab_apply _ _ p k).trans ?_
  refine congrArg (fun s => Ideal.rsqrt (max s Cert.Spec.eps)) ?_
  refine (shapeCast_a_a1_apply _ _ p 0).trans ?_
  refine (rowsum_apply _ _ _ p).trans ?_
  rw [show Cert.Spec.zero = 0 from Ideal.ofBits_zero_f32, zero_add]
  rfl

/-! ## The second body: one margin logit -/

/-! ### Conditions decided on a word -/

/-- A select on "greater than" is the `if` on the order. -/
theorem select_ogt (a t A B : EReal) :
    Scalar.select (FloatOps.cmpf (F := Ideal) (φ := .f32) .ogt a t) A B = if t < a then A else B := by
  rw [Ideal.cmpf_def]
  unfold Ideal.cmp Scalar.select
  by_cases h : t < a <;> simp [h]

/-- A select on equality of two words is the `if` on their equality. -/
theorem select_eq (a b : BitVec 32) (A B : EReal) :
    Scalar.select (IntOp.cmpi .eq a b) A B = if a = b then A else B := by
  unfold IntOp.cmpi Scalar.select
  by_cases h : a = b
  · subst h; simp
  · have hb : (a == b) = false := by simpa using h
    simp [hb, h]

/-! ### The matrix product of the tile -/

theorem lhs_dot_0 (i : S512x1024.Idx) (c : dot_S512x512_S512x1024_S512x1024_1_0_0_1_n_n.contr.Idx) :
    (dot_S512x512_S512x1024_S512x1024_1_0_0_1_n_n.lhsIdx i c 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem lhs_dot_1 (i : S512x1024.Idx) (c : dot_S512x512_S512x1024_S512x1024_1_0_0_1_n_n.contr.Idx) :
    (dot_S512x512_S512x1024_S512x1024_1_0_0_1_n_n.lhsIdx i c 1).val = (c ⟨0, by decide⟩).val :=
  dot_S512x512_S512x1024_S512x1024_1_0_0_1_n_n.lhsIdx_val_of_single rfl i c
theorem rhs_dot_0 (i : S512x1024.Idx) (c : dot_S512x512_S512x1024_S512x1024_1_0_0_1_n_n.contr.Idx) :
    (dot_S512x512_S512x1024_S512x1024_1_0_0_1_n_n.rhsIdx i c 0).val = (c ⟨0, by decide⟩).val :=
  dot_S512x512_S512x1024_S512x1024_1_0_0_1_n_n.rhsIdx_val_of_single rfl i c
theorem rhs_dot_1 (i : S512x1024.Idx) (c : dot_S512x512_S512x1024_S512x1024_1_0_0_1_n_n.contr.Idx) :
    (dot_S512x512_S512x1024_S512x1024_1_0_0_1_n_n.rhsIdx i c 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The product of a `[512, 512]` block with a `[512, 1024]` block into the zero accumulator, at `(p, q)`: the inner
    product of row `p` of the first with column `q` of the second. -/
theorem matmul_tile_apply {φ₁ φ₂ : FTy} (l : FVec Ideal S512x512 φ₁) (r : FVec Ideal S512x1024 φ₂) (p : Fin 512) (q : Fin 1024) :
    FloatOps.matmul dot_S512x512_S512x1024_S512x1024_1_0_0_1_n_n none l r (constant S512x1024 .f32 0x00000000#32) (ix2 p q)
      = ∑ k : Fin 512, l (ix2 p k) * r (ix2 k q) := by
  rw [Ideal.matmul_constant_zero_apply,
    ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p q)
      ((contrEquiv1 dot_S512x512_S512x1024_S512x1024_1_0_0_1_n_n 512 rfl rfl).symm k) = ix2 p k :=
    funext fun a => Fin.ext (by
      match a with
      | ⟨0, _⟩ => exact lhs_dot_0 _ _
      | ⟨1, _⟩ => exact (lhs_dot_1 _ _).trans hk)
  have er : dot_S512x512_S512x1024_S512x1024_1_0_0_1_n_n.rhsIdx (ix2 p q)
      ((contrEquiv1 dot_S512x512_S512x1024_S512x1024_1_0_0_1_n_n 512 rfl rfl).symm k) = ix2 k q :=
    funext fun a => Fin.ext (by
      match a with
      | ⟨0, _⟩ => exact (rhs_dot_0 _ _).trans hk
      | ⟨1, _⟩ => exact rhs_dot_1 _ _)
  rw [el, er]

/-! ### The four pieces of the second body -/

/-- The clipped cosine of the (already scaled) row `p` against column `q` of the tile, the column scaled to unit length. -/
theorem k1_pay2_apply (x1 : Vec Ideal S512x1024 .f32) (x0 : Vec Ideal S512x512 .f32) (p : Fin 512) (q : Fin 1024) :
    k1_pay2 (F := Ideal) x1 x0 (ix2 p q)
      = Cert.Spec.clipc (Cert.Spec.cosv (fun k => x0 (ix2 p k)) (fun k => x1 (ix2 k q))) := by
  unfold k1_pay2 Cert.Spec.clipc Cert.Spec.cosv
  refine congrArg (fun s => min Cert.Spec.hi (max Cert.Spec.lo s)) ?_
  refine (matmul_tile_apply _ _ p q).trans ?_
  refine Finset.sum_congr rfl fun k _ => ?_
  refine congrArg₂ (· * ·) ?_ ?_
  · exact congrFun (shapeCast_self x0 _) (ix2 p k)
  · unfold Cert.Spec.nrm
    refine congrArg (x1 (ix2 k q) * ·) ?_
    refine (broadcastTo_1b_ab_apply _ _ k q).trans ?_
    refine congrArg (fun s => Ideal.rsqrt (max s Cert.Spec.eps)) ?_
    refine (shapeCast_a_1a_apply _ _ 0 q).trans ?_
    refine (colsum_apply _ _ _ q).trans ?_
    rw [show Cert.Spec.zero = 0 from Ideal.ofBits_zero_f32, zero_add]
    rfl

/-- The margin branch at `(p, q)`: the margin function of the clipped cosine there. -/
theorem k1_pay3_apply (x1 : Vec Ideal S512x1024 .f32) (x0 : Vec Ideal S512x512 .f32) (p : Fin 512) (q : Fin 1024) :
    k1_pay3 (F := Ideal) x1 x0 (ix2 p q) = Cert.Spec.marg (k1_pay2 (F := Ideal) x1 x0 (ix2 p q)) := by
  unfold k1_pay3 Cert.Spec.marg
  generalize k1_pay2 (F := Ideal) x1 x0 = c
  exact select_ogt _ _ _ _

/-- The global column number at `(p, q)` of tile `i`: the tile's number times 1024 plus `q`, as a 32-bit word. -/
theorem k1_pay4_apply (i : grid1.Coords) (p : Fin 512) (q : Fin 1024) :
    k1_pay4 i (ix2 p q) = BitVec.ofNat 32 ((i 0).val * 1024 + q.val) := by
  unfold k1_pay4
  show IntOp.addi (iota .tc S512x1024 32 [1] iota_S512x1024_d1_w32 (ix2 p q)) (IntOp.muli (BitVec.ofNat 32 (i 0).val) 1024#32) = _
  rw [iota_single_apply]
  show BitVec.ofNat 32 q.val + BitVec.ofNat 32 (i 0).val * BitVec.ofNat 32 1024 = _
  rw [← BitVec.ofNat_mul, ← BitVec.ofNat_add, Nat.add_comm]

/-- The stored value at `(p, q)`: the margin branch where the row's label is the column's number, else the clipped
    cosine; scaled. -/
theorem k1_pay1_apply (v17 v35 : FVec Ideal S512x1024 .f32) (v39 : IVec S512x1024 32) (v40 : Vec Ideal S512x1 .i32)
    (p : Fin 512) (q : Fin 1024) :
    k1_pay1 (F := Ideal) v17 v35 v39 v40 (ix2 p q)
      = (if v40 (ix2 p 0) = v39 (ix2 p q) then v35 (ix2 p q) else v17 (ix2 p q)) * Cert.Spec.s64 := by
  unfold k1_pay1
  refine congrArg (· * Cert.Spec.s64) ?_
  refine (select_eq _ _ _ _).trans ?_
  have e : broadcastTo S512x1024 (shapeCast S512x1 v40 shapeCasts_S512x1_S512x1) broadcasts_S512x1_S512x1024 (ix2 p q)
      = v40 (ix2 p 0) :=
    (broadcastTo_a1_ab_apply _ _ p q).trans (congrFun (shapeCast_self v40 _) (ix2 p 0))
  rw [e]

theorem pay1_apply (i : grid1.Coords) (x0 : Vec Ideal S512x512 .f32) (x1 : Vec Ideal S512x1024 .f32) (x2 : Vec Ideal S512x1 .i32)
    (p : Fin 512) (q : Fin 1024) :
    pay1 (F := Ideal) i x0 x1 x2 (ix2 p q)
      = Cert.Spec.cell (fun k => x0 (ix2 p k)) (fun k => x1 (ix2 k q)) (x2 (ix2 p 0)) (BitVec.ofNat 32 ((i 0).val * 1024 + q.val)) := by
  unfold pay1 Cert.Spec.cell
  refine (k1_pay1_apply _ _ _ _ p q).trans ?_
  rw [k1_pay3_apply, k1_pay2_apply, k1_pay4_apply]

end Cert.KernelIdeal.Hand

end
-- ==== Proof.KValue.lean ====
import proofs.«178207_j6897717477494_1_alg».proof.Proof.KRunX
import proofs.«178207_j6897717477494_1_alg».proof.Proof.KArr
import proofs.«178207_j6897717477494_1_alg».proof.Proof.KPay
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! # The kernel program's result over the extended reals

On the extended reals a column of what region 1 stores depends on the weights' tile only through that same column
(the column's own norm, and the product of a row of embeddings with that column). So the columns inside the array do
not depend on the staging tail, region 1's result window can be named, and the result array is, entry by entry, the
margin logits of the normalised embeddings against the normalised weights. -/

variable (m : (ℓ : Loc nD τ sig) → Buf (Elt Ideal) ℓ) (ρ : Dev nD → PrngReg)

/-- What region 1's result buffer holds after the body at point `t`: what the body stores when the weights' tile is
    filled out with zeros. -/
def a3I (c : Dev nD) (t : Fin cfg1.N) : S512x1024.Idx → Elt Ideal .f32 :=
  pay1 (grid1.coords t) (iblk1 (V3 m) c 0 t) (wtile (V3 m) c t zfill) (iblk1 (V3 m) c 2 t)

/-- On the columns inside the array the stored tile does not depend on the filler. -/
theorem hlocI (c : Dev nD) (t : Fin cfg1.N) (d : S512x1024.Idx → Elt Ideal .f32) :
    win1_3.cut (grid1.coords t) (pay1 (grid1.coords t) (iblk1 (V3 m) c 0 t) (wtile (V3 m) c t d) (iblk1 (V3 m) c 2 t))
      = win1_3.cut (grid1.coords t) (a3I m c t) := by
  refine cut3_ext t _ _ fun p q hq => ?_
  unfold a3I
  refine (pay1_apply _ _ _ _ p q).trans (Eq.trans ?_ (pay1_apply _ _ _ _ p q).symm)
  refine congrArg (fun col : Fin 512 → EReal => Cert.Spec.cell _ col _ _) ?_
  funext k
  exact (wtile_apply (V3 m) c t d k q hq).trans (wtile_apply (V3 m) c t zfill k q hq).symm

/-- The labels, a vector of 512 words, viewed as a column of 512 rows: row `p` holds the label of `p`. -/
private theorem column_of_vector_apply {α : Type} (x : S512.Idx → α) (h : S512.ShapeCasts S512x1) (p : Fin 512) :
    shapeCast S512x1 x h (ix2 p (0 : Fin 1)) = x (ix1 p) :=
  shapeCast_apply x h _ _ (by
    rw [Shape.rowMajor_val_two, Shape.rowMajor_val_one]
    show p.val = p.val * 1 + 0
    rw [Nat.mul_one, Nat.add_zero])

/-- Region 1 has one grid axis: the coordinate of point `t` is `t`. -/
private theorem coords1_val : ∀ t : Fin grid1.N, ((grid1.coords t) 0).val = t.val := by decide +kernel

/-- The row `p` of embeddings region 1 reads is the launch row `p` scaled to unit length. -/
private theorem erow_eq (c : Dev nD) (t : Fin cfg1.N) (p : Fin 512) :
    (fun k : Fin 512 => iblk1 (V3 m) c 0 t (ix2 p k))
      = Cert.Spec.en (fun k => m ((c.tc : Thread nD τ).loc main_arg0) (ix2 p k)) := by
  funext k
  refine (iblk1_0_apply (V3 m) c t (ix2 p k)).trans ?_
  refine (congrFun (V3_main_v0 m c) (ix2 p k)).trans ?_
  refine (arrAt0_eq (V1 m) c (ix2 p k)).trans ?_
  exact k0_pay1_apply _ p k

/-- A column of the zero-filled weights' tile inside the array is the launch weights' column. -/
private theorem wcol_eq (c : Dev nD) (t : Fin cfg1.N) (q : Fin 1024) (hq : t.val * 1024 + q.val < 100000) :
    (fun k : Fin 512 => wtile (V3 m) c t zfill (ix2 k q))
      = fun k => m ((c.tc : Thread nD τ).loc main_arg2) (ix2 k (⟨t.val * 1024 + q.val, hq⟩ : Fin 100000)) := by
  funext k
  refine (wtile_apply (V3 m) c t zfill k q hq).trans ?_
  exact congrFun (V3_main_arg2 m c) _

/-- The label region 1 reads for row `p` is the launch label of `p`. -/
private theorem lab_eq (c : Dev nD) (t : Fin cfg1.N) (p : Fin 512) :
    iblk1 (V3 m) c 2 t (ix2 p (0 : Fin 1)) = m ((c.tc : Thread nD τ).loc main_arg1) (ix1 p) := by
  refine (iblk1_2_apply (V3 m) c t (ix2 p 0)).trans ?_
  refine (congrFun (V3_main_v1 m c) (ix2 p 0)).trans ?_
  exact column_of_vector_apply _ _ p

/-- Inside the array, the tile region 1 stores at point `t` holds the margin logits of the launch arguments. -/
private theorem a3I_apply (c : Dev nD) (t : Fin cfg1.N) (p : Fin 512) (q : Fin 1024)
    (hq : t.val * 1024 + q.val < 100000) :
    a3I m c t (ix2 p q)
      = Cert.Spec.G (fun p k => m ((c.tc : Thread nD τ).loc main_arg0) (ix2 p k))
          (fun p => m ((c.tc : Thread nD τ).loc main_arg1) (ix1 p))
          (fun k q => m ((c.tc : Thread nD τ).loc main_arg2) (ix2 k q)) p (⟨t.val * 1024 + q.val, hq⟩ : Fin 100000) := by
  unfold a3I Cert.Spec.G
  refine (pay1_apply _ _ _ _ p q).trans ?_
  rw [erow_eq m c t p, wcol_eq m c t q hq, lab_eq m c t p, coords1_val t]

/-- Every weakly fair execution of the kernel program terminates with the result array at the margin logits
    `Cert.Spec.G` of the launch arguments, entry by entry, and the arguments as launched. -/
theorem kernel_value :
    θ_run (defs (F := Ideal)) (onTc (τ := τ) (main (F := Ideal))) ⟨m, fun _ => 0, ρ⟩ (fun r => ∀ c : Dev nD,
      (∀ (p : Fin 512) (q : Fin 100000), r.2.mem ((c.tc : Thread nD τ).loc main_v2) (ix2 p q)
        = Cert.Spec.G (fun p k => m ((c.tc : Thread nD τ).loc main_arg0) (ix2 p k))
            (fun p => m ((c.tc : Thread nD τ).loc main_arg1) (ix1 p))
            (fun k q => m ((c.tc : Thread nD τ).loc main_arg2) (ix2 k q)) p q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (defs (F := Ideal)) _ _).mono (fun r h c => ⟨fun p q => ?_, (h c).2⟩)
    (run_value m ρ (a3I m) (hlocI m))
  rw [(h c).1]
  exact arrAt1_eq (V3 m) (a3I m c) c
    (fun y => Cert.Spec.G (fun p k => m ((c.tc : Thread nD τ).loc main_arg0) (ix2 p k))
      (fun p => m ((c.tc : Thread nD τ).loc main_arg1) (ix1 p))
      (fun k q => m ((c.tc : Thread nD τ).loc main_arg2) (ix2 k q)) (y 0) (y 1))
    (fun t p q hq => a3I_apply m c t p q hq) (ix2 p q)

end Cert.KernelIdeal.Hand

end
-- ==== Proof.RefG.lean ====
import proofs.«178207_j6897717477494_1_alg».proof.Proof.RefRead
import proofs.«178207_j6897717477494_1_alg».proof.Proof.Spec
import Idealize.ShloMosaic.Lib.ValueIdx
import Idealize.ShloMosaic.Lib.StableHlo.Predicate
import Idealize.ShloMosaic.PureOps.Ideal.Laws

/-! The reference's result, read index by index.

The reference normalises each row of the embeddings and each column of the weights by the reciprocal square
root of the (floored) sum of squares, contracts the two, clips the cosine, adds the angular margin at the
label's column and scales. Each stage is read here at explicit coordinates `(p, q)` as a closed expression
of the three arguments; the last theorem collects them. -/

noncomputable section

namespace Cert.RefG

open Cert.ReferenceIdeal Cert.ReferenceIdeal.ReadP Idealize.ShloMosaic Idealize.ShloMosaic.ValueIdx
open scoped BigOperators

/-- The embeddings, the labels and the weights as the reference's `@main` takes them. -/
abbrev EArr := (⟨S512x512, .f32⟩ : BufTy).Contents (Elt Ideal)
abbrev LArr := (⟨S512, .i32⟩ : BufTy).Contents (Elt Ideal)
abbrev WArr := (⟨S512x100000, .f32⟩ : BufTy).Contents (Elt Ideal)

/-! ## The layout operations' index maps at explicit coordinates -/

private theorem i_v6 (p k : Fin 512) : idx_main_v6 (ix2 p k) = ix2 p (0 : Fin 1) :=
  funext fun a => Fin.ext (by match a with | ⟨0, _⟩ => rfl | ⟨1, _⟩ => rfl)
private theorem i_v2 (p : Fin 512) : idx_main_v2 (ix2 p (0 : Fin 1)) = ix1 p :=
  funext fun a => Fin.ext (by match a with | ⟨0, _⟩ => rfl)
private theorem i_v1 (p k : Fin 512) : idx_main_v1 (ix1 p) k = ix2 p k :=
  funext fun a => Fin.ext (by match a with | ⟨0, _⟩ => rfl | ⟨1, _⟩ => rfl)
private theorem i_v14 (k : Fin 512) (q : Fin 100000) : idx_main_v14 (ix2 k q) = ix2 (0 : Fin 1) q :=
  funext fun a => Fin.ext (by match a with | ⟨0, _⟩ => rfl | ⟨1, _⟩ => rfl)
private theorem i_v10 (q : Fin 100000) : idx_main_v10 (ix2 (0 : Fin 1) q) = ix1 q :=
  funext fun a => Fin.ext (by match a with | ⟨0, _⟩ => rfl)
private theorem i_v9 (q : Fin 100000) (k : Fin 512) : idx_main_v9 (ix1 q) k = ix2 k q :=
  funext fun a => Fin.ext (by match a with | ⟨0, _⟩ => rfl | ⟨1, _⟩ => rfl)
private theorem i_l16 (p : Fin 512) (q : Fin 100000) (k : Fin 512) : lidx_main_v16 (ix2 p q) k = ix2 p k :=
  funext fun a => Fin.ext (by match a with | ⟨0, _⟩ => rfl | ⟨1, _⟩ => rfl)
private theorem i_r16 (p : Fin 512) (q : Fin 100000) (k : Fin 512) : ridx_main_v16 (ix2 p q) k = ix2 k q :=
  funext fun a => Fin.ext (by match a with | ⟨0, _⟩ => rfl | ⟨1, _⟩ => rfl)
private theorem i_c3v2 (p : Fin 512) (q : Fin 100000) : idx_main_call3_v2 (ix2 p q) = ix2 p (0 : Fin 1) :=
  funext fun a => Fin.ext (by match a with | ⟨0, _⟩ => rfl | ⟨1, _⟩ => rfl)
private theorem i_c3v0 (p : Fin 512) : idx_main_call3_v0 (ix2 p (0 : Fin 1)) = ix1 p :=
  funext fun a => Fin.ext (by match a with | ⟨0, _⟩ => rfl)
private theorem i_c3v3 (p : Fin 512) (q : Fin 100000) : idx_main_call3_v3 (ix2 p q) = ix2 (0 : Fin 1) q :=
  funext fun a => Fin.ext (by match a with | ⟨0, _⟩ => rfl | ⟨1, _⟩ => rfl)

/-! ## The two norms -/

/-- The reciprocal norm of row `p` of the embeddings. -/
theorem rown_apply (e : EArr) (p : Fin 512) :
    val_main_v5 (F := Ideal) e (ix2 p (0 : Fin 1)) =
      Ideal.rsqrt (max (Ideal.ofBits .f32 0x00000000#32 + ∑ k : Fin 512, e (ix2 p k) * e (ix2 p k))
        (Ideal.ofBits .f32 0x2B8CBCCC#32)) := by
  rw [val_main_v5_apply, val_main_v4_apply, val_main_v2_apply, val_main_v3_apply, val_main_cst_0_apply, i_v2,
    val_main_v1_apply, val_main_cst_apply]
  simp only [val_main_v0_apply, i_v1, Ideal.hostUnary_rsqrt_def, Ideal.maximumf_def, Ideal.mulf_def, Ideal.ofBits_def]

/-- The normalised embedding at `(p, k)`. -/
theorem en_apply (e : EArr) (p k : Fin 512) :
    val_main_v7 (F := Ideal) e (ix2 p k) = e (ix2 p k) * val_main_v5 (F := Ideal) e (ix2 p (0 : Fin 1)) := by
  rw [val_main_v7_apply, val_main_v6_apply, i_v6, Ideal.mulf_def]

/-- The reciprocal norm of column `q` of the weights. -/
theorem coln_apply (w : WArr) (q : Fin 100000) :
    val_main_v13 (F := Ideal) w (ix2 (0 : Fin 1) q) =
      Ideal.rsqrt (max (Ideal.ofBits .f32 0x00000000#32 + ∑ k : Fin 512, w (ix2 k q) * w (ix2 k q))
        (Ideal.ofBits .f32 0x2B8CBCCC#32)) := by
  rw [val_main_v13_apply, val_main_v12_apply, val_main_v10_apply, val_main_v11_apply, val_main_cst_2_apply, i_v10,
    val_main_v9_apply, val_main_cst_1_apply]
  simp only [val_main_v8_apply, i_v9, Ideal.hostUnary_rsqrt_def, Ideal.maximumf_def, Ideal.mulf_def, Ideal.ofBits_def]

/-- The normalised weight at `(k, q)`. -/
theorem wn_apply (w : WArr) (k : Fin 512) (q : Fin 100000) :
    val_main_v15 (F := Ideal) w (ix2 k q) = w (ix2 k q) * val_main_v13 (F := Ideal) w (ix2 (0 : Fin 1) q) := by
  rw [val_main_v15_apply, val_main_v14_apply, i_v14, Ideal.mulf_def]

/-! ## The cosine, its clip and the margin -/

/-- The cosine at `(p, q)`: the contraction of the normalised row with the normalised column. -/
theorem cos_apply (e : EArr) (w : WArr) (p : Fin 512) (q : Fin 100000) :
    val_main_v16 (F := Ideal) e w (ix2 p q) =
      ∑ k : Fin 512, (e (ix2 p k) * val_main_v5 (F := Ideal) e (ix2 p (0 : Fin 1))) *
        (w (ix2 k q) * val_main_v13 (F := Ideal) w (ix2 (0 : Fin 1) q)) := by
  rw [val_main_v16_apply]
  refine Finset.sum_congr rfl fun k _ => ?_
  rw [i_l16, i_r16, en_apply, wn_apply]

/-- The clipped cosine at an index: the cosine held between the two bounds. -/
theorem clip_apply (e : EArr) (w : WArr) (i : S512x100000.Idx) :
    val_main_v17 (F := Ideal) e w i =
      min (Ideal.ofBits .f32 0x3F7FFFEF#32) (max (Ideal.ofBits .f32 0xBF7FFFEF#32) (val_main_v16 (F := Ideal) e w i)) := by
  rw [val_main_v17_apply, val_main_call0_v4_apply, val_main_call0_v3_apply, val_main_cst_4_apply,
    val_main_call0_v2_apply, val_main_call0_v1_apply, val_main_call0_v0_apply, val_main_cst_3_apply]
  simp only [Ideal.minimumf_def, Ideal.maximumf_def, Ideal.ofBits_def]

/-- The sine that goes with the clipped cosine `c`: the root of `1 - c²` held between a small floor and one. -/
theorem sine_apply (e : EArr) (w : WArr) (i : S512x100000.Idx) :
    val_main_v22 (F := Ideal) e w i =
      Ideal.sqrt (min (Ideal.ofBits .f32 0x3F800000#32) (max (Ideal.ofBits .f32 0x358637BD#32)
        (Ideal.ofBits .f32 0x3F800000#32 - val_main_v17 (F := Ideal) e w i * val_main_v17 (F := Ideal) e w i))) := by
  rw [val_main_v22_apply, val_main_v21_apply, val_main_call1_v4_apply, val_main_call1_v3_apply, val_main_cst_7_apply,
    val_main_call1_v2_apply, val_main_call1_v1_apply, val_main_call1_v0_apply, val_main_cst_6_apply,
    val_main_v20_apply, val_main_v19_apply, val_main_cst_5_apply, val_main_v18_apply]
  simp only [Ideal.hostUnary_sqrt_def, Ideal.minimumf_def, Ideal.maximumf_def, Ideal.subf_def, Ideal.mulf_def,
    Ideal.ofBits_def]

/-- A select on a float compare "greater than" is the `if` on the order. -/
private theorem select_ogt {α : Type} (x y : EReal) (a b : α) :
    Scalar.select (Ideal.cmp .ogt x y) a b = if y < x then a else b := by
  unfold Ideal.cmp Scalar.select
  by_cases h : y < x
  · simp only [h, decide_true, BitVec.ofBool_true, if_true]
  · simp only [h, decide_false, BitVec.ofBool_false, if_false]
    exact if_neg (by decide)

/-- The cosine with the margin applied: past the threshold the angle-addition formula, below it the linear
    fallback. -/
theorem marg_apply (e : EArr) (w : WArr) (i : S512x100000.Idx) :
    val_main_v32 (F := Ideal) e w i =
      if Ideal.ofBits .f32 0xBF60A940#32 < val_main_v17 (F := Ideal) e w i then
        val_main_v17 (F := Ideal) e w i * Ideal.ofBits .f32 0x3F60A940#32
          - val_main_v22 (F := Ideal) e w i * Ideal.ofBits .f32 0x3EF57744#32
      else val_main_v17 (F := Ideal) e w i - Ideal.ofBits .f32 0x3E757744#32 := by
  rw [val_main_v32_apply, val_main_v29_apply, val_main_v28_apply, val_main_cst_10_apply,
    val_main_v27_apply, val_main_v24_apply, val_main_v23_apply, val_main_cst_8_apply,
    val_main_v26_apply, val_main_v25_apply, val_main_cst_9_apply,
    val_main_v31_apply, val_main_v30_apply, val_main_cst_11_apply]
  simp only [Ideal.cmpf_def, Ideal.subf_def, Ideal.mulf_def, Ideal.ofBits_def, select_ogt]

/-! ## The label mask -/

/-- The word `0x3F800000` denotes the real one: sign bit clear, exponent field 127 (the bias), significand field
    zero, so the value is `2²³ · 2^(127 - 127 - 23)`. -/
private theorem one_word : Ideal.ofBits .f32 0x3F800000#32 = 1 := by
  have hs : (0x3F800000#32 : BitVec 32).extractLsb' (8 + 23) 1 = 0#1 := by decide
  have he : ((0x3F800000#32 : BitVec 32).extractLsb' 23 8).toNat = 127 := by decide
  have hf : ((0x3F800000#32 : BitVec 32).extractLsb' 0 23).toNat = 0 := by decide
  unfold Ideal.ofBits Ideal.ieee
  simp only [hs, he, hf]
  norm_num

/-- A bit converted to a float (zero or one) and compared for equality with one gives the bit back. -/
private theorem onehot_bit (b : BitVec 1) :
    Ideal.cmp .oeq (FloatOps.uitofp (F := Ideal) .f32 b) (Ideal.ofBits .f32 0x3F800000#32) = b := by
  rw [one_word]
  rcases BitVec.eq_zero_or_eq_one b with rfl | rfl
  · show BitVec.ofBool (decide ((((0#1 : BitVec 1).toNat : ℝ) : EReal) = 1)) = 0#1
    simp
  · show BitVec.ofBool (decide ((((1#1 : BitVec 1).toNat : ℝ) : EReal) = 1)) = 1#1
    simp

/-- The mask at `(p, q)`: the bit "row `p`'s label is the word of column `q`". -/
theorem mask_apply (lab : LArr) (p : Fin 512) (q : Fin 100000) :
    val_main_v35 (F := Ideal) lab (ix2 p q) = IntOp.cmpi .eq (lab (ix1 p)) (BitVec.ofNat 32 q.val) := by
  rw [val_main_v35_apply, val_main_v34_apply, val_main_cst_12_apply, val_main_v33_apply, val_main_call3_v4_apply,
    val_main_call3_v2_apply, i_c3v2, val_main_call3_v0_apply, i_c3v0, val_main_call3_v3_apply, i_c3v3,
    val_main_call3_v1_apply]
  exact onehot_bit _

/-- A select on a word compare "equal" is the `if` on the equation. -/
private theorem select_eq {α : Type} (x y : BitVec 32) (a b : α) :
    Scalar.select (IntOp.cmpi .eq x y) a b = if x = y then a else b := by
  by_cases h : x = y
  · rw [if_pos h, StableHlo.Predicate.cmpi_eq_iff.mpr h, select_one]
  · rw [if_neg h, eq_zero_of_ne_one (mt StableHlo.Predicate.cmpi_eq_iff.mp h), select_zero]

/-! ## The reference's result is the specification -/

theorem ref_apply (e : (⟨S512x512, .f32⟩ : BufTy).Contents (Elt Ideal)) (lab : (⟨S512, .i32⟩ : BufTy).Contents (Elt Ideal))
    (w : (⟨S512x100000, .f32⟩ : BufTy).Contents (Elt Ideal)) (p : Fin 512) (q : Fin 100000) :
    Cert.ReferenceIdeal.ReadP.val_main_v38 (F := Ideal) e lab w (ix2 p q) =
      Cert.Spec.G (fun p k => e (ix2 p k)) (fun p => lab (ix1 p)) (fun k q => w (ix2 k q)) p q := by
  rw [val_main_v38_apply, val_main_v37_apply, val_main_cst_13_apply, val_main_v36_apply, mask_apply, select_eq,
    marg_apply, sine_apply, clip_apply, cos_apply, rown_apply, coln_apply]
  simp only [Ideal.mulf_def, Ideal.ofBits_def, Cert.Spec.G, Cert.Spec.cell, Cert.Spec.marg, Cert.Spec.clipc,
    Cert.Spec.cosv, Cert.Spec.en, Cert.Spec.nrm]

end Cert.RefG

end
-- ==== Proof.lean ====
/- The proof of `Cert.Claim`: the ArcFace margin logits computed by two TensorCore kernels — row-normalised
   embeddings, then per tile of 1024 columns the column-normalised weights, the matrix product, the clip, the margin at
   the label's column and the scale — against the plain array program, over the extended reals.

   The three frames: the reference's is its run with the result dropped; the idealized kernel program's is its value run
   with the result dropped; the word-level kernel program's is proved with region 1's result window forgotten, because
   there the matrix product is opaque in its whole right operand and the last tile's staging tail holds words nothing
   names (nothing runs after region 1, and no control decision reads the result). The ideal pass rewrote nothing, so
   `preserves` is trivial. The value claim: both programs end with the result array at `Cert.Spec.G` of the arguments,
   entry by entry; no law that needs finiteness is used, so the precondition is never opened. -/
import proofs.«178207_j6897717477494_1_alg».proof.Defs
import proofs.«178207_j6897717477494_1_alg».proof.Proof.Gen.Kernel
import proofs.«178207_j6897717477494_1_alg».proof.Proof.Gen.KernelIdeal
import proofs.«178207_j6897717477494_1_alg».proof.Proof.Gen.ReferenceIdeal
import proofs.«178207_j6897717477494_1_alg».proof.Proof.Gen.Pre_finite_inputs
import proofs.«178207_j6897717477494_1_alg».proof.Proof.BRunF
import proofs.«178207_j6897717477494_1_alg».proof.Proof.KValue
import proofs.«178207_j6897717477494_1_alg».proof.Proof.RefG
import Idealize.ShloMosaic.Lib.ValueIdx
import Idealize.ShloMosaic.Adequacy
import Idealize.ShloMosaic.Init

noncomputable section

namespace Cert.Proof

open Idealize.ShloMosaic Idealize.ShloMosaic.TcCoe Idealize.SL.Sem Idealize.ShloMosaic.ValueIdx

/-- The margin logits as one array of the three argument arrays. -/
def logits (e : (⟨Cert.KernelIdeal.S512x512, .f32⟩ : BufTy).Contents (Elt Ideal)) (lab : (⟨Cert.KernelIdeal.S512, .i32⟩ : BufTy).Contents (Elt Ideal))
    (w : (⟨Cert.KernelIdeal.S512x100000, .f32⟩ : BufTy).Contents (Elt Ideal)) : (⟨Cert.KernelIdeal.S512x100000, .f32⟩ : BufTy).Contents (Elt Ideal) :=
  fun j => Cert.Spec.G (fun p k => e (ix2 p k)) (fun p => lab (ix1 p)) (fun k q => w (ix2 k q)) (j 0) (j 1)

theorem frame_k [Cert.Kernel.Facts] [Cert.Pre_finite_inputs.Facts] : Cert.frame_Kernel :=
  fun m ρ _ => Cert.Kernel.Hand.frame_forget (F := Bits) m ρ

theorem frame_ki [Cert.KernelIdeal.Facts] [Cert.Pre_finite_inputs.Facts] : Cert.frame_KernelIdeal :=
  fun m ρ _ => (θ_run Cert.KernelIdeal.defs _ _).mono (fun _ h c => (h c).2) (Cert.KernelIdeal.Hand.kernel_value m ρ)

theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

theorem preserves : Cert.preserves_Kernel_KernelIdeal := trivial

/-- Both idealized programs end with the result array at the margin logits of the (agreeing) arguments. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, (h c).2⟩) (Cert.KernelIdeal.Hand.kernel_value m ρ)
    funext j
    rw [eq_ix2 j]
    exact (h c).1 (j 0) (j 1)
  · refine (θ_run Cert.ReferenceIdeal.defs _ _).mono (fun r h c => ⟨?_, (h c).2⟩) (Cert.ReferenceIdeal.ValueP.run (F := Ideal) m' ρ')
    rw [(h c).1, Cert.ReferenceIdeal.ReadP.val_main_v38_eq, (hagree c).1, (hagree c).2.1, (hagree c).2.2]
    funext j
    rw [eq_ix2 j]
    exact Cert.RefG.ref_apply _ _ _ (j 0) (j 1)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
